-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x32000 : Shape := ⟨3, ![8, 1024, 32000]⟩
abbrev S8x1024 : Shape := ⟨2, ![8, 1024]⟩
abbrev S8x512 : Shape := ⟨2, ![8, 512]⟩
abbrev S_ : Shape := ⟨0, ![]⟩

class Facts : Prop where
  bcast_S_S8x1024x32000 : S_.BroadcastsInDim S8x1024x32000 (![] : Fin 0 → Fin S8x1024x32000.rank)
  reducesTo_S8x1024x32000_S_d0_1_2 : S8x1024x32000.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_

variable [Facts]

def fn {F : FTy → Type} [FloatOps F] (main_arg0 : FVec F S8x1024x32000 .f32) (main_arg1 : IVec S8x1024 32) (main_arg2 : IVec S8x512 32) : IVec S_ 1 :=
  let main_v0 : FVec F S8x1024x32000 .f32 := Host.absf main_arg0
  let main_cst : FVec F S_ .f32 := constant S_ .f32 0x7F800000#32
  let main_v1 : FVec F S8x1024x32000 .f32 := broadcastInDim S8x1024x32000 ![] bcast_S_S8x1024x32000 main_cst
  let main_v2 : IVec S8x1024x32000 1 := cmpf .olt main_v0 main_v1
  let main_c : IVec S_ 1 := constantI S_ 1 1#1
  let main_v3 : IVec S_ 1 := (fun x v => Host.reduce IntOp.andi x v reducesTo_S8x1024x32000_S_d0_1_2 h_S_) main_v2 main_c
  let main_c_0 : IVec S_ 32 := constantI S_ 32 4294967196#32
  let main_v4 : IVec S8x1024 32 := broadcastInDim S8x1024 ![] bcast_S_S8x1024 main_c_0
  let main_v5 : IVec S8x1024 1 := cmpi .eq main_arg1 main_v4
  let main_c_1 : IVec S_ 32 := constantI S_ 32 0#32
  let main_v6 : IVec S8x1024 32 := broadcastInDim S8x1024 ![] bcast_S_S8x1024 main_c_1
  let main_v7 : IVec S8x1024 1 := cmpi .sge main_arg1 main_v6
  let main_c_2 : IVec S_ 32 := constantI S_ 32 32000#32
  let main_v8 : IVec S8x1024 32 := broadcastInDim S8x1024 ![] bcast_S_S8x1024 main_c_2
  let main_v9 : IVec S8x1024 1 := cmpi .slt main_arg1 main_v8
  let main_v10 : IVec S8x1024 1 := andi main_v7 main_v9
  let main_v11 : IVec S8x1024 1 := ori main_v5 main_v10
  let main_c_3 : IVec S_ 1 := constantI S_ 1 1#1
  let main_v12 : IVec S_ 1 := (fun x v => Host.reduce IntOp.andi x v reducesTo_S8x1024_S_d0_1 h_S_) main_v11 main_c_3
  let main_v13 : IVec S_ 1 := andi main_v3 main_v12
  main_v13
-- ==== Kernel.lean ====
abbrev S8x1024x32000 : Shape := ⟨3, ![8, 1024, 32000]⟩
abbrev S8x1024 : Shape := ⟨2, ![8, 1024]⟩
abbrev S8x512 : Shape := ⟨2, ![8, 512]⟩
abbrev S8x1024x1 : Shape := ⟨3, ![8, 1024, 1]⟩
abbrev S8x1x512 : Shape := ⟨3, ![8, 1, 512]⟩
abbrev S1x128x32000 : Shape := ⟨3, ![1, 128, 32000]⟩
abbrev S1x128x1 : Shape := ⟨3, ![1, 128, 1]⟩
abbrev S1x1x512 : Shape := ⟨3, ![1, 1, 512]⟩
abbrev S128x1 : Shape := ⟨2, ![128, 1]⟩
abbrev S1x512 : Shape := ⟨2, ![1, 512]⟩
abbrev S128x512 : Shape := ⟨2, ![128, 512]⟩
abbrev S128 : Shape := ⟨1, ![128]⟩
abbrev S128x3200 : Shape := ⟨2, ![128, 3200]⟩
abbrev S1x128x3200 : Shape := ⟨3, ![1, 128, 3200]⟩
abbrev S_ : Shape := ⟨0, ![]⟩

abbrev nBuf : Space → Nat
  | .hbm => 11
  | .vmem => 8
  | .smem => 0
  | _ => 0

abbrev bufTy : (tb : Table) → Fin (tcTables nBuf tb) → BufTy
  | .hbm, ⟨0, _⟩ => ⟨S8x1024x32000, .f32⟩
  | .hbm, ⟨1, _⟩ => ⟨S8x1024, .i32⟩
  | .hbm, ⟨2, _⟩ => ⟨S8x512, .i32⟩
  | .hbm, ⟨3, _⟩ => ⟨S8x1024x1, .i32⟩
  | .hbm, ⟨4, _⟩ => ⟨S8x1x512, .i32⟩
  | .hbm, ⟨5, _⟩ => ⟨S8x1024x1, .f32⟩
  | .hbm, ⟨6, _⟩ => ⟨S8x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1x128x32000, .f32⟩
  | .local _ .vmem, ⟨1, _⟩ => ⟨S1x128x32000, .f32⟩
  | .local _ .vmem, ⟨2, _⟩ => ⟨S1x128x1, .i32⟩
  | .local _ .vmem, ⟨3, _⟩ => ⟨S1x128x1, .i32⟩
  | .local _ .vmem, ⟨4, _⟩ => ⟨S1x1x512, .i32⟩
  | .local _ .vmem, ⟨5, _⟩ => ⟨S1x1x512, .i32⟩
  | .local _ .vmem, ⟨6, _⟩ => ⟨S1x128x1, .f32⟩
  | .local _ .vmem, ⟨7, _⟩ => ⟨S1x128x1, .f32⟩
  | _, _ => ⟨S8x1024x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_14 : BitVec 32 := 0#32
  let c10_i32 : BitVec 32 := 10#32
  let v28 : BitVec 32 := Scalar.addi c0_i32_14 c10_i32
  let c1_i32 : BitVec 32 := 1#32
  ⟨c0_i32_14, v28, c1_i32⟩
def k0_mult1 (k0_t1 : Fin k0_t1_loop.trips) : BitVec 32 :=
  let c0_i32_14 : BitVec 32 := 0#32
  let c1_i32 : BitVec 32 := 1#32
  let arg6 : BitVec 32 := Scf.iv c0_i32_14 c1_i32 k0_t1
  let c3200_i32 : BitVec 32 := 3200#32
  let v41 : BitVec 32 := Scalar.muli arg6 c3200_i32
  v41
def k0_off1 (k0_t1 : Fin k0_t1_loop.trips) : Fin 3 → Nat :=
  let c0_21 : Index := 0#32
  let c0_22 : Index := 0#32
  let c0_i32_14 : BitVec 32 := 0#32
  let c1_i32 : BitVec 32 := 1#32
  let arg6 : BitVec 32 := Scf.iv c0_i32_14 c1_i32 k0_t1
  let c3200_i32 : BitVec 32 := 3200#32
  let v41 : BitVec 32 := Scalar.muli arg6 c3200_i32
  let v42 : BitVec 32 := v41
  let v43 : Index := Scalar.indexCast v42
  ![0, 0, v43.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S8x1024_S8x1024x1_0_1 : S8x1024.BroadcastsInDim S8x1024x1 (![0, 1] : Fin 2 → Fin S8x1024x1.rank)
  bcast_S8x512_S8x1x512_0_2 : S8x512.BroadcastsInDim S8x1x512 (![0, 2] : Fin 2 → Fin S8x1x512.rank)
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S128x1_S128x512 : S128x1.Broadcasts S128x512
  broadcasts_S1x512_S128x512 : S1x512.Broadcasts S128x512
  reduces_S128x512_S128 : S128x512.Reduces [1] S128
  shapeCasts_S128_S128x1 : S128.ShapeCasts S128x1
  iota_S128x3200_d1_w32 : S128x3200.Iotas .tc 32 [1]
  h_S1x128x3200 : 0 < S1x128x3200.numel
  shapeCasts_S1x128x3200_S128x3200 : S1x128x3200.ShapeCasts S128x3200
  reduces_S128x3200_S128 : S128x3200.Reduces [1] S128
  broadcasts_S128x1_S128x3200 : S128x1.Broadcasts S128x3200
  shapeCasts_S128x1_S1x128x1 : S128x1.ShapeCasts S1x128x1
  shapeCasts_S8x1024x1_S8x1024 : S8x1024x1.ShapeCasts S8x1024
  reducesTo_S8x1024_S_d0_1 : S8x1024.ReducesTo [0, 1] S_
  h_S_ : 0 < S_.numel
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x128x3200.size a ≤ S1x128x32000.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x32000.size a ≤ S8x1024x32000.size a
  hwx0_0 : ∀ i : grid0.Coords, EltTy.bits .f32 = 32 ∨ (Rect.block (s := S8x1024x32000) S1x128x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1.size a ≤ S8x1024x1.size a
  hwx0_1 : ∀ i : grid0.Coords, EltTy.bits .i32 = 32 ∨ (Rect.block (s := S8x1024x1) S1x128x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x512.size a
  hwx0_2 : ∀ i : grid0.Coords, EltTy.bits .i32 = 32 ∨ (Rect.block (s := S8x1x512) S1x1x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1.size a ≤ S8x1024x1.size a
  hwx0_3 : ∀ i : grid0.Coords, EltTy.bits .f32 = 32 ∨ (Rect.block (s := S8x1024x1) S1x128x1.size (cc0_transform_3 i) (hinb0_3 i)).WholeWords (EltTy.packing .f32)

variable [Facts₀]

abbrev win0_0 : Pipeline.Window sig grid0 :=
  Pipeline.Window.ofSpec (Memref.whole main_arg0) S1x128x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x1024x32000 : Shape := ⟨3, ![8, 1024, 32000]⟩
abbrev S8x1024 : Shape := ⟨2, ![8, 1024]⟩
abbrev S8x512 : Shape := ⟨2, ![8, 512]⟩
abbrev S_ : Shape := ⟨0, ![]⟩
abbrev S8x1024x1 : Shape := ⟨3, ![8, 1024, 1]⟩
abbrev S8x1024x1x1 : Shape := ⟨4, ![8, 1024, 1, 1]⟩
abbrev S1 : Shape := ⟨1, ![1]⟩
abbrev S1x1x1x1 : Shape := ⟨4, ![1, 1, 1, 1]⟩
abbrev S8x1x512 : Shape := ⟨3, ![8, 1, 512]⟩
abbrev S8x1024x512 : Shape := ⟨3, ![8, 1024, 512]⟩

abbrev nBuf : Space → Nat
  | .hbm => 76
  | .vmem => 0
  | .smem => 0
  | _ => 0

abbrev bufTy : (tb : Table) → Fin (tcTables nBuf tb) → BufTy
  | .hbm, ⟨0, _⟩ => ⟨S8x1024x32000, .f32⟩
  | .hbm, ⟨1, _⟩ => ⟨S8x1024, .i32⟩
  | .hbm, ⟨2, _⟩ => ⟨S8x512, .i32⟩
  | .hbm, ⟨3, _⟩ => ⟨S_, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S8x1024x1, .f32⟩
  | .hbm, ⟨9, _⟩ => ⟨S8x1024x32000, .f32⟩
  | .hbm, ⟨10, _⟩ => ⟨S8x1024x32000, .f32⟩
  | .hbm, ⟨11, _⟩ => ⟨S8x1024x32000, .f32⟩
  | .hbm, ⟨12, _⟩ => ⟨S_, .f32⟩
  | .hbm, ⟨13, _⟩ => ⟨S8x1024, .f32⟩
  | .hbm, ⟨14, _⟩ => ⟨S8x1024x1, .f32⟩
  | .hbm, ⟨15, _⟩ => ⟨S8x1024x1, .f32⟩
  | .hbm, ⟨16, _⟩ => ⟨S8x1024x32000, .f32⟩
  | .hbm, ⟨17, _⟩ => ⟨S8x1024x32000, .f32⟩
  | .hbm, ⟨18, _⟩ => ⟨S_, .i32⟩
  | .hbm, ⟨19, _⟩ => ⟨S8x1024, .i32⟩
  | .hbm, ⟨20, _⟩ => ⟨S8x1024, .i1⟩
  | .hbm, ⟨21, _⟩ => ⟨S_, .i32⟩
  | .hbm, ⟨22, _⟩ => ⟨S_, .i32⟩
  | .hbm, ⟨23, _⟩ => ⟨S8x1024, .i32⟩
  | .hbm, ⟨24, _⟩ => ⟨S8x1024, .i32⟩
  | .hbm, ⟨25, _⟩ => ⟨S8x1024x1, .i32⟩
  | .hbm, ⟨26, _⟩ => ⟨S_, .i32⟩
  | .hbm, ⟨27, _⟩ => ⟨S8x1024x1, .i32⟩
  | .hbm, ⟨28, _⟩ => ⟨S8x1024x1, .i1⟩
  | .hbm, ⟨29, _⟩ => ⟨S_, .i32⟩
  | .hbm, ⟨30, _⟩ => ⟨S8x1024x1, .i32⟩
  | .hbm, ⟨31, _⟩ => ⟨S8x1024x1, .i32⟩
  | .hbm, ⟨32, _⟩ => ⟨S8x1024x1, .i32⟩
  | .hbm, ⟨33, _⟩ => ⟨S8x1024x1x1, .i32⟩
  | .hbm, ⟨34, _⟩ => ⟨S1, .i32⟩
  | .hbm, ⟨35, _⟩ => ⟨S_, .i32⟩
  | .hbm, ⟨36, _⟩ => ⟨S8x1024x1x1, .i32⟩
  | .hbm, ⟨37, _⟩ => ⟨S8x1024x1x1, .i1⟩
  | .hbm, ⟨38, _⟩ => ⟨S1x1x1x1, .i32⟩
  | .hbm, ⟨39, _⟩ => ⟨S8x1024x1x1, .i32⟩
  | .hbm, ⟨40, _⟩ => ⟨S8x1024x1x1, .i1⟩
  | .hbm, ⟨41, _⟩ => ⟨S8x1024x1x1, .i1⟩
  | .hbm, ⟨42, _⟩ => ⟨S_, .i1⟩
  | .hbm, ⟨43, _⟩ => ⟨S8x1024x1, .i1⟩
  | .hbm, ⟨44, _⟩ => ⟨S8x1024x1, .f32⟩
  | .hbm, ⟨45, _⟩ => ⟨S_, .f32⟩
  | .hbm, ⟨46, _⟩ => ⟨S8x1024x1, .f32⟩
  | .hbm, ⟨47, _⟩ => ⟨S8x1024x1, .f32⟩
  | .hbm, ⟨48, _⟩ => ⟨S8x1024, .f32⟩
  | .hbm, ⟨49, _⟩ => ⟨S8x1024, .f32⟩
  | .hbm, ⟨50, _⟩ => ⟨S_, .f32⟩
  | .hbm, ⟨51, _⟩ => ⟨S_, .f32⟩
  | .hbm, ⟨52, _⟩ => ⟨S8x1024, .f32⟩
  | .hbm, ⟨53, _⟩ => ⟨S8x1024, .f32⟩
  | .hbm, ⟨54, _⟩ => ⟨S8x1024x1, .i32⟩
  | .hbm, ⟨55, _⟩ => ⟨S8x1x512, .i32⟩
  | .hbm, ⟨56, _⟩ => ⟨S8x1024x512, .i32⟩
  | .hbm, ⟨57, _⟩ => ⟨S8x1024x512, .i32⟩
  | .hbm, ⟨58, _⟩ => ⟨S8x1024x512, .i1⟩
  | .hbm, ⟨59, _⟩ => ⟨S_, .i1⟩
  | .hbm, ⟨60, _⟩ => ⟨S8x1024, .i1⟩
  | .hbm, ⟨61, _⟩ => ⟨S_, .i32⟩
  | .hbm, ⟨62, _⟩ => ⟨S8x1024, .i32⟩
  | .hbm, ⟨63, _⟩ => ⟨S8x1024, .i1⟩
  | .hbm, ⟨64, _⟩ => ⟨S8x1024, .i1⟩
  | .hbm, ⟨65, _⟩ => ⟨S_, .f32⟩
  | .hbm, ⟨66, _⟩ => ⟨S_, .f32⟩
  | .hbm, ⟨67, _⟩ => ⟨S8x1024, .f32⟩
  | .hbm, ⟨68, _⟩ => ⟨S8x1024, .f32⟩
  | .hbm, ⟨69, _⟩ => ⟨S8x1024, .f32⟩
  | .hbm, ⟨70, _⟩ => ⟨S8x1024, .f32⟩
  | .hbm, ⟨71, _⟩ => ⟨S8x1024, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | _, _ => ⟨S8x1024x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_call1_v0 : Ref sig .tc := ⟨.hbm, 22, rfl⟩
abbrev main_call1_v1 : Ref sig .tc := ⟨.hbm, 23, rfl⟩
abbrev main_v3 : Ref sig .tc := ⟨.hbm, 24, rfl⟩
abbrev main_v4 : Ref sig .tc := ⟨.hbm, 25, rfl⟩
abbrev main_call2_c : Ref sig .tc := ⟨.hbm, 26, rfl⟩
abbrev main_call2_v0 : Ref sig .tc := ⟨.hbm, 27, rfl⟩
abbrev main_call2_v1 : Ref sig .tc := ⟨.hbm, 28, rfl⟩
abbrev main_call2_c_0 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_call2_v5 : Ref sig .tc := ⟨.hbm, 33, rfl⟩
abbrev main_call2_c_1 : Ref sig .tc := ⟨.hbm, 34, rfl⟩
abbrev main_call2_c_2 : Ref sig .tc := ⟨.hbm, 35, rfl⟩
abbrev main_call2_v6 : Ref sig .tc := ⟨.hbm, 36, rfl⟩
abbrev main_call2_v7 : Ref sig .tc := ⟨.hbm, 37, rfl⟩
abbrev main_call2_v8 : Ref sig .tc := ⟨.hbm, 38, rfl⟩
abbrev main_call2_v9 : Ref sig .tc := ⟨.hbm, 39, rfl⟩
abbrev main_call2_v10 : Ref sig .tc := ⟨.hbm, 40, rfl⟩
abbrev main_call2_v11 : Ref sig .tc := ⟨.hbm, 41, rfl⟩
abbrev main_call2_c_3 : Ref sig .tc := ⟨.hbm, 42, rfl⟩
abbrev main_call2_v12 : Ref sig .tc := ⟨.hbm, 43, rfl⟩
abbrev main_call2_v13 : Ref sig .tc := ⟨.hbm, 44, rfl⟩
abbrev main_call2_cst : Ref sig .tc := ⟨.hbm, 45, rfl⟩
abbrev main_call2_v14 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_cst : Ref sig .tc := ⟨.hbm, 50, rfl⟩
abbrev main_call3_v0 : Ref sig .tc := ⟨.hbm, 51, rfl⟩
abbrev main_call3_v1 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_c_1 : Ref sig .tc := ⟨.hbm, 59, rfl⟩
abbrev main_v14 : Ref sig .tc := ⟨.hbm, 60, rfl⟩
abbrev main_c_2 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_cst_3 : Ref sig .tc := ⟨.hbm, 65, rfl⟩
abbrev main_cst_4 : Ref sig .tc := ⟨.hbm, 66, rfl⟩
abbrev main_call4_v0 : Ref sig .tc := ⟨.hbm, 67, rfl⟩
abbrev main_call4_v1 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_cst_5 : Ref sig .tc := ⟨.hbm, 72, rfl⟩
abbrev main_v21 : Ref sig .tc := ⟨.hbm, 73, rfl⟩
abbrev main_cst_6 : Ref sig .tc := ⟨.hbm, 74, rfl⟩
abbrev main_v22 : Ref sig .tc := ⟨.hbm, 75, rfl⟩

abbrev nD : Nat := 1
abbrev τ : Topo := Topo.v7x

variable {F : FTy → Type} [FloatOps F]

class Facts₀ : Prop where
  reducesTo_S8x1024x32000_S8x1024_d2 : S8x1024x32000.ReducesTo [2] S8x1024
  h_S_ : 0 < S_.numel
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S8x1024x1_S8x1024x32000_0_1_2 : S8x1024x1.BroadcastsInDim S8x1024x32000 (![0, 1, 2] : Fin 3 → Fin S8x1024x32000.rank)
  bcast_S_S8x1024x1 : S_.BroadcastsInDim S8x1024x1 (![] : Fin 0 → Fin S8x1024x1.rank)
  shapeCasts_S8x1024x1_S8x1024x1x1 : S8x1024x1.ShapeCasts S8x1024x1x1
  bcast_S_S8x1024x1x1 : S_.BroadcastsInDim S8x1024x1x1 (![] : Fin 0 → Fin S8x1024x1x1.rank)
  bcast_S1_S1x1x1x1_3 : S1.BroadcastsInDim S1x1x1x1 (![3] : Fin 1 → Fin S1x1x1x1.rank)
  bcast_S1x1x1x1_S8x1024x1x1_0_1_2_3 : S1x1x1x1.BroadcastsInDim S8x1024x1x1 (![0, 1, 2, 3] : Fin 4 → Fin S8x1024x1x1.rank)
  reducesTo_S8x1024x1x1_S8x1024x1_d3 : S8x1024x1x1.ReducesTo [3] S8x1024x1
  shapeCasts_S8x1024x1_S8x1024 : S8x1024x1.ShapeCasts S8x1024
  bcast_S8x512_S8x1x512_0_2 : S8x512.BroadcastsInDim S8x1x512 (![0, 2] : Fin 2 → Fin S8x1x512.rank)
  bcast_S8x1024x1_S8x1024x512_0_1_2 : S8x1024x1.BroadcastsInDim S8x1024x512 (![0, 1, 2] : Fin 3 → Fin S8x1024x512.rank)
  bcast_S8x1x512_S8x1024x512_0_1_2 : S8x1x512.BroadcastsInDim S8x1024x512 (![0, 1, 2] : Fin 3 → Fin S8x1024x512.rank)
  reducesTo_S8x1024x512_S8x1024_d2 : S8x1024x512.ReducesTo [2] S8x1024
  reducesTo_S8x1024_S_d0_1 : S8x1024.ReducesTo [0, 1] S_
  gather_S8x1024x32000_S8x1024x1x1_S8x1024x1_n_2_01_01_2_3_111_wf : GatherDims.WF S8x1024x32000 S8x1024x1x1 S8x1024x1 [] [2] [0, 1] [2] [0, 1] 3 ![1, 1, 1]

variable [Facts₀]

def gather_S8x1024x32000_S8x1024x1x1_S8x1024x1_n_2_01_01_2_3_111 : GatherDims S8x1024x32000 S8x1024x1x1 S8x1024x1 where
  offsetDims := []
  collapsedSliceDims := [2]
  operandBatchingDims := [0, 1]
  startIndicesBatchingDims := [0, 1]
  startIndexMap := [2]
  indexVectorDim := 3
  sliceSizes := ![1, 1, 1]
  wf := gather_S8x1024x32000_S8x1024x1x1_S8x1024x1_n_2_01_01_2_3_111_wf

class Facts : Prop extends Facts₀ where

variable [Facts]
-- ==== Proof.Spec.lean ====
/-
  The per-token weighted cross-entropy, as mathematics, and the online recurrence that computes it.

  A token has a row of 32000 logits `x`, a label word `t` and the batch row's 512 source ids. Its loss is
  `(log ∑ᵤ exp xᵤ − x_t) · w`, zeroed when the label is the ignore marker −100 (the word 4294967196), with weight
  `w = 1` when the label occurs among the source ids or is the padding id 0, else `w = 2` (the two weights kept as
  the f32 words both programs print). The kernel reaches the log-sum-exp by a recurrence over ten chunks of 3200
  logits carrying (running maximum `m`, sum of exponentials rescaled to `m`, target logit picked by a one-hot sum);
  `step` and `run` state that recurrence on extended reals for one row.
-/
import Idealize.ShloMosaic.PureOps.Ideal
import Idealize.ShloMosaic.PureOps.Ideal.Laws

noncomputable section

open scoped BigOperators

namespace Cert.TokenLoss

open Idealize.ShloMosaic

/-- The ignore marker −100 as a 32-bit word. -/
abbrev ignoreWord : BitVec 32 := 4294967196#32

/-- A label is admissible: the ignore marker, or a class in [0, 32000). -/
def LabelOk (t : BitVec 32) : Prop := t = ignoreWord ∨ t.toNat < 32000

/-- The weight of a token: 1 when its label is one of the source ids or the padding id 0, else 2. -/
def weight (t : BitVec 32) (src : Fin 512 → BitVec 32) : EReal :=
  if (∃ s, src s = t) ∨ t = 0#32 then Ideal.ofBits .f32 0x3F800000#32 else Ideal.ofBits .f32 0x40000000#32

/-- The vocabulary index a label word names (for a class in range: the word's value). -/
def tgtIdx (t : BitVec 32) : Fin 32000 := ⟨t.toNat % 32000, Nat.mod_lt _ (by decide)⟩

/-- Negative log-likelihood of class `v` under the softmax of a real row: log-sum-exp minus the logit. -/
def nll (row : Fin 32000 → ℝ) (v : Fin 32000) : ℝ := Real.log (∑ u, Real.exp (row u)) - row v

/-- The weighted loss of one token, from its row of logits (extended reals, read as reals), label and source ids. -/
def tokenLoss (row : Fin 32000 → EReal) (t : BitVec 32) (src : Fin 512 → BitVec 32) : EReal :=
  (if t = ignoreWord then (0 : EReal) else ((nll (fun u => (row u).toReal) (tgtIdx t) : ℝ) : EReal)) * weight t src

/-- Lane `j` of chunk `c` is vocabulary index `3200 c + j`. -/
def vidx (c : Fin 10) (j : Fin 3200) : Fin 32000 := ⟨3200 * c.val + j.val, by have := c.isLt; have := j.isLt; omega⟩

/-- One chunk's update of (running maximum, sum of exponentials relative to it, target logit): the chunk's
    maximum joins the running one, the old sum is rescaled by `exp (m − m')`, the chunk's exponentials relative to the
    new maximum are added, and the lanes `hit` marks add their logits to the target logit. -/
def step (y : Fin 3200 → EReal) (hit : Fin 3200 → Prop) [DecidablePred hit] (s : EReal × EReal × EReal) :
    EReal × EReal × EReal :=
  (max s.1 ((Finset.univ : Finset (Fin 3200)).fold max (⊥ : EReal) y),
   s.2.1 * Ideal.exp (s.1 - max s.1 ((Finset.univ : Finset (Fin 3200)).fold max (⊥ : EReal) y))
     + ∑ j : Fin 3200, Ideal.exp (y j - max s.1 ((Finset.univ : Finset (Fin 3200)).fold max (⊥ : EReal) y)),
   s.2.2 + ∑ j : Fin 3200, if hit j then y j else 0)

/-- The recurrence before chunk `k`, from (−∞, 0, 0). -/
def run (row : Fin 32000 → EReal) (hit : Fin 10 → Fin 3200 → Prop) [∀ c, DecidablePred (hit c)] :
    ℕ → EReal × EReal × EReal
  | 0 => (⊥, 0, 0)
  | k + 1 => if h : k < 10 then step (fun j => row (vidx ⟨k, h⟩ j)) (hit ⟨k, h⟩) (run row hit k) else run row hit k

/-- What the kernel stores for a token from the recurrence's end state: `0 − (tl − (log l + m))`. -/
def finish (s : EReal × EReal × EReal) : EReal := 0 - (s.2.2 - (Ideal.log s.2.1 + s.1))

end Cert.TokenLoss

end
-- ==== Proof.PreDecode.lean ====
/-
  The printed precondition, read back as mathematics.

  The precondition is one bit: the conjunction of "every logit has absolute value below +∞" and "every label word is
  the ignore marker −100 or lies in [0, 32000) as a signed integer", each a conjunction over all entries of its array.
  When the bit is 1, every conjunct is 1. An extended real whose absolute value max x (−x) is below +∞ is neither +∞
  nor −∞, hence a real. A 32-bit word that is non-negative as a signed integer and below 32000 as a signed integer has
  its unsigned value below 32000; a word equal to the word of −100 is the ignore marker.
-/
import proofs.«412151_j47029891891462_3_alg».proof.Pre_finite_inputs
import proofs.«412151_j47029891891462_3_alg».proof.Proof.Gen.Pre_finite_inputs
import proofs.«412151_j47029891891462_3_alg».proof.Proof.Spec
import Idealize.ShloMosaic.Lib.ReduceAll
import Idealize.ShloMosaic.Lib.StableHlo.Predicate
import Idealize.ShloMosaic.Lib.ValueIdx

noncomputable section

namespace Cert.TokenLoss

open Idealize.ShloMosaic

/-- The scalar shape has one index. -/
instance subsingleton_scalarIdx : Subsingleton Cert.Pre_finite_inputs.S_.Idx :=
  ⟨fun a b => funext fun d => d.elim0⟩

/-- The f32 word 0x7F800000 denotes +∞. -/
theorem ofBits_inf : Ideal.ofBits .f32 0x7F800000#32 = (⊤ : EReal) := by
  simp [Ideal.ofBits, Ideal.ieee]

/-- An extended real with max x (−x) < +∞ is a real: it is neither +∞ nor −∞. -/
theorem real_of_abs_lt_inf (x : EReal)
    (h : Ideal.cmp .olt (max x (-x)) (Ideal.ofBits .f32 0x7F800000#32) = 1#1) : ∃ r : ℝ, x = (r : EReal) := by
  rw [ofBits_inf] at h
  have hlt : max x (-x) < ⊤ := by
    unfold Ideal.cmp at h
    simpa [StableHlo.Predicate.ofBool_eq_one_iff] using h
  rw [max_lt_iff] at hlt
  induction x using EReal.rec with
  | bot => exact absurd hlt.2 (by simp)
  | coe r => exact ⟨r, rfl⟩
  | top => exact absurd hlt.1 (by simp)

/-- A word that equals the word of −100, or is at least 0 and below 32000 as a signed integer, is an admissible
    label: in the second case its unsigned value is below 32000. -/
theorem labelOk_of_bits (t : BitVec 32)
    (h : IntOp.ori (IntOp.cmpi .eq t 4294967196#32)
      (IntOp.andi (IntOp.cmpi .sge t 0#32) (IntOp.cmpi .slt t 32000#32)) = 1#1) : LabelOk t := by
  rcases IntOp.ori_eq_one.1 h with h | h
  · exact Or.inl (StableHlo.Predicate.cmpi_eq_iff.1 h)
  · obtain ⟨h0, h1⟩ := IntOp.andi_eq_one.1 h
    refine Or.inr ?_
    unfold IntOp.cmpi at h0 h1
    rw [StableHlo.Predicate.ofBool_eq_one_iff] at h0 h1
    simp only [BitVec.slt, BitVec.sle, decide_eq_true_eq] at h0 h1
    have h32 := t.isLt
    unfold BitVec.toInt at h0 h1
    split at h1 <;> simp at h0 h1 <;> omega

/-- THE PRECONDITION DECODED: every logit is a real and every label is admissible. -/
theorem pre_decode (x0 : FVec Ideal Cert.Pre_finite_inputs.S8x1024x32000 .f32)
    (x1 : IVec Cert.Pre_finite_inputs.S8x1024 32) (x2 : IVec Cert.Pre_finite_inputs.S8x512 32)
    (h : Cert.Pre_finite_inputs.fn (F := Ideal) x0 x1 x2 = fun _ => 1#1) :
    (∀ i, ∃ r : ℝ, x0 i = (r : EReal)) ∧ (∀ i, LabelOk (x1 i)) := by
  have e := congrFun h ValueIdx.ix0
  dsimp only [Cert.Pre_finite_inputs.fn] at e
  obtain ⟨e1, e2⟩ := IntOp.andi_eq_one.1 e
  refine ⟨fun i => ?_, fun i => ?_⟩
  · exact real_of_abs_lt_inf (x0 i) (Host.reduce_andi_all _ _ _ _ _ e1 i)
  · exact labelOk_of_bits (x1 i) (Host.reduce_andi_all _ _ _ _ _ e2 i)

end Cert.TokenLoss

end
-- ==== Proof.Carried.lean ====
/-
  The kernel body's stored value as one closed term of its loads: the loop's carried triple by recursion over the
  trips (each trip's yield is the three payloads of the carried values and the chunk it loads), then the payloads
  after the loop. Stated for any float family.
-/
import proofs.«412151_j47029891891462_3_alg».proof.Proof.Gen.KernelIdeal.Skeleton

noncomputable section

namespace Cert.KernelIdeal.Body

open Cert.KernelIdeal Cert.KernelIdeal.Gen Idealize.ShloMosaic

variable {F : FTy → Type} [FloatOps F]

/-- The carried (running maximum, rescaled sum, target logit) columns before trip `k`, for label column `v0` and
    the chunks `chunk k` the trips load. -/
def carried (v0 : Vec F S1x128x1 .i32) (chunk : Fin k0_t1_loop.trips → Vec F S1x128x3200 .f32) :
    ℕ → FVec F S128x1 .f32 × FVec F S128x1 .f32 × FVec F S128x1 .f32
  | 0 => (k0_pay5 (F := F), k0_pay6 (F := F), k0_pay7 (F := F))
  | k + 1 =>
    if h : k < k0_t1_loop.trips then
      (k0_pay9 (carried v0 chunk k).1 (chunk ⟨k, h⟩),
       k0_pay10 (carried v0 chunk k).1 (carried v0 chunk k).2.1 (chunk ⟨k, h⟩),
       k0_pay11 v0 ⟨k, h⟩ (carried v0 chunk k).2.2 (chunk ⟨k, h⟩))
    else carried v0 chunk k

/-- What the body stores into its output block: the payloads after the loop, of the label column, the source-id
    row and the carried triple after the last trip. -/
def stored (v0 : Vec F S1x128x1 .i32) (v2 : Vec F S1x1x512 .i32) (chunk : Fin k0_t1_loop.trips → Vec F S1x128x3200 .f32) :
    FVec F S1x128x1 .f32 :=
  k0_pay1 (k0_pay3 v0) (k0_pay4 v0 v2)
    (k0_pay12 (carried v0 chunk k0_t1_loop.trips).1 (carried v0 chunk k0_t1_loop.trips).2.1 (carried v0 chunk k0_t1_loop.trips).2.2)

end Cert.KernelIdeal.Body

end
-- ==== Proof.Math.lean ====
/-
  The online recurrence computes the log-sum-exp: laws on reals, lifted to the extended reals the two programs use.
-/
import proofs.«412151_j47029891891462_3_alg».proof.Proof.Spec
import Mathlib.Data.EReal.Operations
import Mathlib.Analysis.SpecialFunctions.Log.Basic
import Mathlib.Algebra.BigOperators.Fin
import Mathlib.Algebra.BigOperators.Ring.Finset
import Mathlib.Algebra.BigOperators.Group.Finset.Piecewise
import Mathlib.Algebra.Order.BigOperators.Group.Finset
import Mathlib.Data.Fintype.BigOperators
import Mathlib.Data.Finset.Fold

noncomputable section

open scoped BigOperators

namespace Cert.TokenLoss

open Idealize.ShloMosaic

namespace Online

/-! ### Reading real sums and maxima in the extended reals -/

/-- A finite sum of reals, read in the extended reals, is the sum of the readings. -/
theorem coe_sum {ι : Type} (s : Finset ι) (f : ι → ℝ) :
    (∑ i ∈ s, (f i : EReal)) = ((∑ i ∈ s, f i : ℝ) : EReal) := by
  classical
  refine Finset.induction_on s ?_ ?_
  · simp
  · intro a s ha ih
    rw [Finset.sum_insert ha, Finset.sum_insert ha, ih, EReal.coe_add]

/-- The maximum of two reals, read in the extended reals. -/
theorem coe_max (a b : ℝ) : max (a : EReal) (b : EReal) = ((max a b : ℝ) : EReal) :=
  (EReal.coe_strictMono.monotone.map_max).symm

/-- Over any nonempty finite family of reals, the maximum folded from −∞ is a real. -/
theorem fold_max_real_finset {ι : Type} {s : Finset ι} (hs : s.Nonempty) (y : ι → ℝ) :
    ∃ M : ℝ, s.fold max (⊥ : EReal) (fun j => (y j : EReal)) = (M : EReal) := by
  induction hs using Finset.Nonempty.cons_induction with
  | singleton a => exact ⟨y a, by rw [Finset.fold_singleton, max_bot_right]⟩
  | cons a s ha hs ih =>
    obtain ⟨M, hM⟩ := ih
    exact ⟨max (y a) M, by rw [Finset.fold_cons, hM, coe_max]⟩

end Online

/-- A maximum folded from −∞ over a nonempty family of reals is a real. -/
theorem fold_max_real {n : ℕ} (hn : 0 < n) (y : Fin n → ℝ) :
    ∃ M : ℝ, (Finset.univ : Finset (Fin n)).fold max (⊥ : EReal) (fun j => (y j : EReal)) = (M : EReal) :=
  Online.fold_max_real_finset (Finset.univ_nonempty_iff.mpr ⟨⟨0, hn⟩⟩) y

namespace Online

/-- The exponential of a difference of reals, as a product of real exponentials. -/
theorem exp_sub_coe (a b : ℝ) :
    Ideal.exp ((a : EReal) - (b : EReal)) = ((Real.exp a * Real.exp (-b) : ℝ) : EReal) := by
  rw [← EReal.coe_sub, Ideal.exp_coe, sub_eq_add_neg, Real.exp_add]

/-- Exponentials relative to a real shift sum to the plain sum of exponentials times `exp (−shift)`. -/
theorem sum_exp_sub {ι : Type} (s : Finset ι) (y : ι → ℝ) (b : ℝ) :
    (∑ j ∈ s, Ideal.exp ((y j : EReal) - (b : EReal)))
      = (((∑ j ∈ s, Real.exp (y j)) * Real.exp (-b) : ℝ) : EReal) := by
  simp only [exp_sub_coe]
  rw [coe_sum, Finset.sum_mul]

/-- A one-hot sum of reals, read in the extended reals. -/
theorem sum_ite_coe {ι : Type} (s : Finset ι) (hit : ι → Prop) [DecidablePred hit] (y : ι → ℝ) :
    (∑ j ∈ s, if hit j then (y j : EReal) else 0)
      = ((∑ j ∈ s, if hit j then y j else 0 : ℝ) : EReal) := by
  rw [← coe_sum]
  refine Finset.sum_congr rfl (fun j _ => ?_)
  split_ifs
  · rfl
  · exact EReal.coe_zero.symm

/-! ### One chunk of the recurrence on real data -/

/-- From a state with a real running maximum `m` whose sum is `a · exp (−m)`, one chunk leads to a state of the same
    form for `a + ∑ⱼ exp yⱼ`: the rescaling `exp (m − m')` turns `exp (−m)` into `exp (−m')`. -/
theorem step_real (y : Fin 3200 → ℝ) (hit : Fin 3200 → Prop) [DecidablePred hit] (m a t : ℝ) :
    ∃ m' : ℝ, step (fun j => (y j : EReal)) hit ((m : EReal), ((a * Real.exp (-m) : ℝ) : EReal), (t : EReal))
      = ((m' : EReal), (((a + ∑ j, Real.exp (y j)) * Real.exp (-m') : ℝ) : EReal),
          ((t + ∑ j, if hit j then y j else 0 : ℝ) : EReal)) := by
  obtain ⟨M, hM⟩ := fold_max_real (by norm_num : 0 < 3200) y
  refine ⟨max m M, ?_⟩
  have hone : Real.exp (-m) * Real.exp m = 1 := by rw [← Real.exp_add, neg_add_cancel, Real.exp_zero]
  have key : a * Real.exp (-m) * (Real.exp m * Real.exp (-(max m M))) + (∑ j, Real.exp (y j)) * Real.exp (-(max m M))
      = (a + ∑ j, Real.exp (y j)) * Real.exp (-(max m M)) := by
    linear_combination (a * Real.exp (-(max m M))) * hone
  unfold step
  simp only [hM, coe_max]
  rw [exp_sub_coe, sum_exp_sub, sum_ite_coe, ← EReal.coe_mul, ← EReal.coe_add, ← EReal.coe_add, key]

/-- From the initial state (−∞, 0, 0), one chunk leads to a state of that form: `exp (−∞ − m') = 0` kills the empty
    sum. -/
theorem step_bot (y : Fin 3200 → ℝ) (hit : Fin 3200 → Prop) [DecidablePred hit] :
    ∃ m' : ℝ, step (fun j => (y j : EReal)) hit ((⊥ : EReal), (0 : EReal), (0 : EReal))
      = ((m' : EReal), (((∑ j, Real.exp (y j)) * Real.exp (-m') : ℝ) : EReal),
          ((∑ j, if hit j then y j else 0 : ℝ) : EReal)) := by
  obtain ⟨M, hM⟩ := fold_max_real (by norm_num : 0 < 3200) y
  refine ⟨M, ?_⟩
  unfold step
  simp only [hM, max_bot_left]
  rw [EReal.bot_sub, Ideal.exp_bot, mul_zero, zero_add, zero_add, sum_exp_sub, sum_ite_coe]

/-! ### The recurrence over the chunks -/

/-- Chunk `i`'s sum of exponentials (zero past the tenth chunk). -/
def chunkExp (row : Fin 32000 → ℝ) (i : ℕ) : ℝ :=
  if h : i < 10 then ∑ j : Fin 3200, Real.exp (row (vidx ⟨i, h⟩ j)) else 0

/-- Chunk `i`'s one-hot sum (zero past the tenth chunk). -/
def chunkHit (row : Fin 32000 → ℝ) (hit : Fin 10 → Fin 3200 → Prop) [∀ c, DecidablePred (hit c)] (i : ℕ) : ℝ :=
  if h : i < 10 then ∑ j : Fin 3200, (if hit ⟨i, h⟩ j then row (vidx ⟨i, h⟩ j) else 0) else 0

theorem run_step (row : Fin 32000 → EReal) (hit : Fin 10 → Fin 3200 → Prop) [∀ c, DecidablePred (hit c)]
    (k : ℕ) (h : k < 10) :
    run row hit (k + 1) = step (fun j => row (vidx ⟨k, h⟩ j)) (hit ⟨k, h⟩) (run row hit k) := by
  rw [run, dif_pos h]

/-- After `k + 1 ≤ 10` chunks the state is (a real `m`, the sum of the exponentials seen so far times `exp (−m)`,
    the one-hot sums seen so far), whatever the running maxima were. -/
theorem run_succ (row : Fin 32000 → ℝ) (hit : Fin 10 → Fin 3200 → Prop) [∀ c, DecidablePred (hit c)]
    (k : ℕ) (hk : k < 10) :
    ∃ m : ℝ, run (fun u => (row u : EReal)) hit (k + 1)
      = ((m : EReal), (((∑ i ∈ Finset.range (k + 1), chunkExp row i) * Real.exp (-m) : ℝ) : EReal),
          ((∑ i ∈ Finset.range (k + 1), chunkHit row hit i : ℝ) : EReal)) := by
  induction k with
  | zero =>
    obtain ⟨m, hm⟩ := step_bot (fun j => row (vidx ⟨0, hk⟩ j)) (hit ⟨0, hk⟩)
    refine ⟨m, ?_⟩
    rw [run_step _ _ _ hk]
    refine hm.trans ?_
    simp only [Finset.sum_range_succ, Finset.sum_range_zero, zero_add, chunkExp, chunkHit, dif_pos hk]
  | succ k ih =>
    obtain ⟨m, hm⟩ := ih (by omega)
    obtain ⟨m', hm'⟩ := step_real (fun j => row (vidx ⟨k + 1, hk⟩ j)) (hit ⟨k + 1, hk⟩) m
      (∑ i ∈ Finset.range (k + 1), chunkExp row i) (∑ i ∈ Finset.range (k + 1), chunkHit row hit i)
    refine ⟨m', ?_⟩
    rw [run_step _ _ _ hk, hm]
    refine hm'.trans ?_
    rw [Finset.sum_range_succ (chunkExp row) (k + 1), Finset.sum_range_succ (chunkHit row hit) (k + 1)]
    simp only [chunkExp, chunkHit, dif_pos hk]

/-! ### The ten chunks tile the vocabulary -/

/-- (chunk, lane) ↦ vocabulary index `3200 c + j` is a bijection, with inverse `u ↦ (u / 3200, u % 3200)`. -/
def chunkEquiv : Fin 10 × Fin 3200 ≃ Fin 32000 where
  toFun p := vidx p.1 p.2
  invFun u := (⟨u.val / 3200, by have := u.isLt; omega⟩, ⟨u.val % 3200, by omega⟩)
  left_inv := by
    rintro ⟨c, j⟩
    have := c.isLt
    have := j.isLt
    refine Prod.ext (Fin.ext ?_) (Fin.ext ?_)
    · show (3200 * c.val + j.val) / 3200 = c.val
      omega
    · show (3200 * c.val + j.val) % 3200 = j.val
      omega
  right_inv := by
    intro u
    refine Fin.ext ?_
    show 3200 * (u.val / 3200) + u.val % 3200 = u.val
    omega

/-- Summing chunk by chunk is summing over the vocabulary. -/
theorem sum_chunks (f : Fin 32000 → ℝ) :
    (∑ i ∈ Finset.range 10, (if h : i < 10 then ∑ j : Fin 3200, f (vidx ⟨i, h⟩ j) else 0)) = ∑ u : Fin 32000, f u := by
  rw [← Fin.sum_univ_eq_sum_range (fun i => if h : i < 10 then ∑ j : Fin 3200, f (vidx ⟨i, h⟩ j) else 0) 10]
  have hc : ∀ c : Fin 10, (if h : (c : ℕ) < 10 then ∑ j : Fin 3200, f (vidx ⟨c, h⟩ j) else 0)
      = ∑ j : Fin 3200, f (vidx c j) := fun c => by rw [dif_pos c.isLt]
  simp only [hc]
  rw [← Fintype.sum_prod_type' (fun c j => f (vidx c j))]
  exact Fintype.sum_equiv chunkEquiv _ _ (fun p => rfl)

end Online

open Online

/-- The recurrence's end state gives the negative log-likelihood: whatever the running maxima were, the rescaled
    sums telescope to `(∑ exp x) · exp (−m)`, so `log l + m` is the log-sum-exp; and the one-hot sums pick the
    target logit once. -/
theorem run_final (row : Fin 32000 → ℝ) (tgt : Fin 32000) (hit : Fin 10 → Fin 3200 → Prop) [∀ c, DecidablePred (hit c)]
    (hhit : ∀ c j, hit c j ↔ vidx c j = tgt) :
    finish (run (fun u => (row u : EReal)) hit 10) = ((nll row tgt : ℝ) : EReal) := by
  obtain ⟨m, hm⟩ := run_succ row hit 9 (by norm_num)
  have hA : (∑ i ∈ Finset.range 10, chunkExp row i) = ∑ u, Real.exp (row u) :=
    sum_chunks (fun u => Real.exp (row u))
  have hT : (∑ i ∈ Finset.range 10, chunkHit row hit i) = row tgt := by
    have h1 : ∀ i, chunkHit row hit i
        = (if h : i < 10 then ∑ j : Fin 3200, (fun u => if u = tgt then row u else 0) (vidx ⟨i, h⟩ j) else 0) := by
      intro i
      unfold chunkHit
      simp only [hhit]
    rw [Finset.sum_congr rfl (fun i _ => h1 i)]
    exact (sum_chunks (fun u => if u = tgt then row u else 0)).trans
      (by rw [Finset.sum_ite_eq', if_pos (Finset.mem_univ _)])
  haveI : Nonempty (Fin 32000) := ⟨⟨0, by norm_num⟩⟩
  have hpos : 0 < ∑ u, Real.exp (row u) := Finset.sum_pos (fun u _ => Real.exp_pos _) Finset.univ_nonempty
  have hpos' : ¬ ((∑ u, Real.exp (row u)) * Real.exp (-m) ≤ 0) := not_le.mpr (mul_pos hpos (Real.exp_pos _))
  rw [show (10 : ℕ) = 9 + 1 from rfl, hm, hA, hT]
  unfold finish
  simp only []
  rw [Ideal.log_coe, if_neg hpos', Real.log_mul hpos.ne' (Real.exp_ne_zero _), Real.log_exp, zero_sub,
    ← EReal.coe_add, ← EReal.coe_sub, ← EReal.coe_neg]
  congr 1
  unfold nll
  ring

/-- The reference's form: with any real shift `M` (it uses the row's maximum), `−((x_t − M) − log (0 + ∑ exp (x − M)))`
    is the negative log-likelihood. -/
theorem shifted_nll (row : Fin 32000 → ℝ) (tgt : Fin 32000) (M : ℝ) :
    -(((row tgt : EReal) - (M : EReal)) - Ideal.log (0 + ∑ u : Fin 32000, Ideal.exp ((row u : EReal) - (M : EReal))))
      = ((nll row tgt : ℝ) : EReal) := by
  haveI : Nonempty (Fin 32000) := ⟨⟨0, by norm_num⟩⟩
  have hpos : 0 < ∑ u, Real.exp (row u) := Finset.sum_pos (fun u _ => Real.exp_pos _) Finset.univ_nonempty
  have hpos' : ¬ ((∑ u, Real.exp (row u)) * Real.exp (-M) ≤ 0) := not_le.mpr (mul_pos hpos (Real.exp_pos _))
  rw [zero_add, sum_exp_sub, Ideal.log_coe, if_neg hpos', Real.log_mul hpos.ne' (Real.exp_ne_zero _), Real.log_exp,
    ← EReal.coe_sub, ← EReal.coe_sub, ← EReal.coe_neg]
  congr 1
  unfold nll
  ring

end Cert.TokenLoss

end
-- ==== Proof.PayRow.lean ====
/-
  The kernel body's stored value, read at one row, is that token's weighted loss.
-/
import proofs.«412151_j47029891891462_3_alg».proof.Proof.Carried
import proofs.«412151_j47029891891462_3_alg».proof.Proof.Math
import Idealize.ShloMosaic.Lib.ValueIdx
import Idealize.ShloMosaic.Lib.Pipeline.Value
import Idealize.ShloMosaic.Lib.ValueLayout
import Idealize.ShloMosaic.PureOps.Ideal.Laws
import Mathlib.Data.Finset.Fold

noncomputable section

open scoped BigOperators

namespace Cert.KernelIdeal.Body

open Cert.KernelIdeal Cert.KernelIdeal.Gen Cert.TokenLoss Idealize.ShloMosaic Idealize.ShloMosaic.ValueIdx

/-! ## Column forms of the layout operations, read at an index -/

section Layout
variable {α : Type}

/-- A vector `[a]` cast to a column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The index a lane reduction of a `[128, 3200]` block inserts lane `j` at, for row `r`. -/
theorem lift3200 (r : Fin 128) (j : Fin 3200) :
    reduces_S128x3200_S128.lift (ix1 r) j = ix2 r j := by
  funext c
  match c with
  | ⟨0, _⟩ => exact Fin.ext rfl
  | ⟨1, _⟩ => exact Fin.ext rfl

/-- The same for a `[128, 512]` block. -/
theorem lift512 (r : Fin 128) (s : Fin 512) :
    reduces_S128x512_S128.lift (ix1 r) s = ix2 r s := by
  funext c
  match c with
  | ⟨0, _⟩ => exact Fin.ext rfl
  | ⟨1, _⟩ => exact Fin.ext rfl

/-- The word `0xFF800000` is `−∞`. -/
theorem ofBits_neg_inf : Ideal.ofBits .f32 0xFF800000#32 = (⊥ : EReal) := by
  simp [Ideal.ofBits, Ideal.ieee]

/-- The loop runs ten trips. -/
theorem trips_eq : k0_t1_loop.trips = 10 := by decide

/-! ## The payloads read at one row -/

/-- A chunk viewed `[128, 3200]` reads the block at `(0, r, j)`. -/
theorem pay8_at (v44 : Vec Ideal S1x128x3200 .f32) (r : Fin 128) (j : Fin 3200) :
    k0_pay8 (F := Ideal) v44 (ix2 r j) = v44 (ix3 0 r j) :=
  shapeCast_1ab_ab_apply v44 shapeCasts_S1x128x3200_S128x3200 r j

/-- The label column viewed `[128, 1]` reads the block at `(0, r, 0)`. -/
theorem pay2_at (v0 : Vec Ideal S1x128x1 .i32) (r : Fin 128) :
    k0_pay2 (F := Ideal) v0 (ix2 r 0) = v0 (ix3 0 r 0) :=
  shapeCast_1ab_ab_apply v0 shapeCasts_S1x128x1_S128x1 r 0

/-- The lane maximum of a chunk's row, from `−∞`. -/
theorem rowmax_at (v44 : Vec Ideal S1x128x3200 .f32) (r : Fin 128) :
    multiReduction (F := Ideal) .maximumf [1] S128 (k0_pay8 v44) 0xFF800000#32 reduces_S128x3200_S128 (.inl rfl) rfl (ix1 r)
      = (Finset.univ : Finset (Fin 3200)).fold max (⊥ : EReal) (fun j => v44 (ix3 0 r j)) := by
  refine (Ideal.multiReduction_maximumf_single (k0_pay8 v44) _ reduces_S128x3200_S128 _ _ (ix1 r)).trans ?_
  have hf : (k0_pay8 (F := Ideal) v44 ∘ reduces_S128x3200_S128.lift (ix1 r)) = fun j : Fin 3200 => v44 (ix3 0 r j) :=
    funext fun j => (congrArg (k0_pay8 (F := Ideal) v44) (lift3200 r j)).trans (pay8_at v44 r j)
  show (Finset.univ : Finset (Fin 3200)).fold max (Ideal.ofBits .f32 0xFF800000#32)
      (k0_pay8 (F := Ideal) v44 ∘ reduces_S128x3200_S128.lift (ix1 r)) = _
  rw [ofBits_neg_inf, hf]
  rfl

/-- The running maximum after a trip, at row `r`. -/
theorem pay9_row (arg7 : FVec Ideal S128x1 .f32) (v44 : Vec Ideal S1x128x3200 .f32) (r : Fin 128) :
    k0_pay9 (F := Ideal) arg7 v44 (ix2 r 0)
      = max (arg7 (ix2 r 0)) ((Finset.univ : Finset (Fin 3200)).fold max (⊥ : EReal) (fun j => v44 (ix3 0 r j))) := by
  unfold k0_pay9
  show max (arg7 (ix2 r 0)) (shapeCast S128x1 _ shapeCasts_S128_S128x1 (ix2 r 0)) = _
  refine congrArg (max _) ?_
  exact (shapeCast_a_a1_apply _ _ r 0).trans (rowmax_at v44 r)

/-- The rescaled sum of exponentials after a trip, at row `r`. -/
theorem pay10_row (arg7 arg8 : FVec Ideal S128x1 .f32) (v44 : Vec Ideal S1x128x3200 .f32) (r : Fin 128) :
    k0_pay10 (F := Ideal) arg7 arg8 v44 (ix2 r 0)
      = arg8 (ix2 r 0) * Ideal.exp (arg7 (ix2 r 0) - k0_pay9 (F := Ideal) arg7 v44 (ix2 r 0))
        + ∑ j : Fin 3200, Ideal.exp (v44 (ix3 0 r j) - k0_pay9 (F := Ideal) arg7 v44 (ix2 r 0)) := by
  unfold k0_pay10
  show arg8 (ix2 r 0) * Ideal.exp (arg7 (ix2 r 0) - k0_pay9 (F := Ideal) arg7 v44 (ix2 r 0))
      + shapeCast S128x1 _ shapeCasts_S128_S128x1 (ix2 r 0) = _
  congr 1
  refine (shapeCast_a_a1_apply _ _ r 0).trans ?_
  refine (Ideal.multiReduction_add_single _ _ reduces_S128x3200_S128 _ _ (ix1 r)).trans ?_
  show ∑ j : Fin 3200, _ = _
  refine Finset.sum_congr rfl fun j _ => ?_
  rw [lift3200 r j]
  show Ideal.exp (k0_pay8 (F := Ideal) v44 (ix2 r j)
      - broadcastTo S128x3200 (k0_pay9 (F := Ideal) arg7 v44) broadcasts_S128x1_S128x3200 (ix2 r j)) = _
  rw [pay8_at, broadcastTo_a1_ab_apply]

/-! ## Words -/

/-- The equality comparison of two words is the bit 1 exactly when they are equal. -/
theorem cmpi_eq_one_iff {w : ℕ} (a b : BitVec w) : IntOp.cmpi .eq a b = 1#1 ↔ a = b := by
  show BitVec.ofBool (a == b) = 1#1 ↔ a = b
  cases hab : (a == b)
  · have hne : a ≠ b := fun e => by subst e; simp at hab
    exact ⟨fun h1 => absurd h1 (by decide), fun e => absurd e hne⟩
  · exact ⟨fun _ => by simpa using hab, fun _ => rfl⟩

/-- A select on an equality comparison of words is the `if` on their equality. -/
theorem select_cmpi_eq {α : Type} {w : ℕ} (x y : BitVec w) (a b : α) :
    Scalar.select (IntOp.cmpi .eq x y) a b = if x = y then a else b := by
  unfold Scalar.select
  by_cases h : x = y
  · rw [if_pos h]; exact if_pos ((cmpi_eq_one_iff x y).mpr h)
  · rw [if_neg h]; exact if_neg (mt (cmpi_eq_one_iff x y).mp h)

/-- The label with the ignore marker replaced by class 0: the word the one-hot lanes compare against. -/
def safe (t : BitVec 32) : BitVec 32 := if t = ignoreWord then 0#32 else t

/-- The first vocabulary index of trip `c`'s chunk, as the kernel computes the word. -/
def offs (c : ℕ) : BitVec 32 := Scalar.muli (Scf.iv 0#32 1#32 c) 3200#32

/-- Lane `j` of trip `c` is the target's lane: the lane's word is the safe label minus the chunk's offset. -/
def hit (t : BitVec 32) (c : Fin 10) (j : Fin 3200) : Prop := BitVec.ofNat 32 j.val = safe t - offs c.val

instance (t : BitVec 32) (c : Fin 10) : DecidablePred (hit t c) := fun j =>
  inferInstanceAs (Decidable (BitVec.ofNat 32 j.val = safe t - offs c.val))

/-- The target logit's one-hot sum after a trip, at row `r`. -/
theorem pay11_row (v0 : Vec Ideal S1x128x1 .i32) (k : Fin k0_t1_loop.trips) (arg9 : FVec Ideal S128x1 .f32)
    (v44 : Vec Ideal S1x128x3200 .f32) (r : Fin 128) :
    k0_pay11 (F := Ideal) v0 k arg9 v44 (ix2 r 0)
      = arg9 (ix2 r 0) + ∑ j : Fin 3200,
          if BitVec.ofNat 32 j.val = safe (v0 (ix3 0 r 0)) - offs k.val then v44 (ix3 0 r j) else 0 := by
  unfold k0_pay11
  show arg9 (ix2 r 0) + shapeCast S128x1 _ shapeCasts_S128_S128x1 (ix2 r 0) = _
  congr 1
  refine (shapeCast_a_a1_apply _ _ r 0).trans ?_
  refine (Ideal.multiReduction_add_single _ _ reduces_S128x3200_S128 _ _ (ix1 r)).trans ?_
  show ∑ j : Fin 3200, _ = _
  refine Finset.sum_congr rfl fun j _ => ?_
  rw [lift3200 r j]
  show Scalar.select (IntOp.cmpi .eq (iota .tc S128x3200 32 [1] iota_S128x3200_d1_w32 (ix2 r j))
        (broadcastTo S128x3200 _ broadcasts_S128x1_S128x3200 (ix2 r j)))
      (k0_pay8 (F := Ideal) v44 (ix2 r j)) (Ideal.ofBits .f32 0x00000000#32) = _
  rw [select_cmpi_eq, pay8_at, Ideal.ofBits_zero_f32, iota_single_apply, broadcastTo_a1_ab_apply]
  show (if BitVec.ofNat 32 j.val = IntOp.subi (Scalar.select (k0_pay3 (F := Ideal) v0 (ix2 r 0)) 0#32 (k0_pay2 (F := Ideal) v0 (ix2 r 0))) (offs k.val)
      then v44 (ix3 0 r j) else 0) = _
  have hs : Scalar.select (k0_pay3 (F := Ideal) v0 (ix2 r 0)) 0#32 (k0_pay2 (F := Ideal) v0 (ix2 r 0)) = safe (v0 (ix3 0 r 0)) := by
    show Scalar.select (IntOp.cmpi .eq (k0_pay2 (F := Ideal) v0 (ix2 r 0)) 4294967196#32) 0#32 (k0_pay2 (F := Ideal) v0 (ix2 r 0)) = _
    rw [select_cmpi_eq, pay2_at]
    rfl
  rw [hs]
  rfl

/-! ## The payloads after the loop, read at one row -/

/-- The word `0x3F800000` is `1`. -/
theorem ofBits_one : Ideal.ofBits .f32 0x3F800000#32 = (1 : EReal) := IdealRules.sign_bit.ideal_onePat .f32

/-- A bit made from a Boolean is 1 exactly when the Boolean is true. -/
theorem ofBool_eq_one (b : Bool) : BitVec.ofBool b = 1#1 ↔ b = true := by cases b <;> decide

/-- The ordered "greater than" of two extended reals is the bit 1 exactly when the order holds. -/
theorem cmp_ogt_eq_one_iff (x y : EReal) : Ideal.cmp .ogt x y = 1#1 ↔ y < x := by
  show BitVec.ofBool (decide (y < x)) = 1#1 ↔ _
  rw [ofBool_eq_one, decide_eq_true_iff]

/-- The or of two bits is 1 exactly when one of them is. -/
theorem ori_eq_one_iff (a b : BitVec 1) : IntOp.ori a b = 1#1 ↔ a = 1#1 ∨ b = 1#1 := by
  rcases BitVec.eq_zero_or_eq_one a with rfl | rfl <;> rcases BitVec.eq_zero_or_eq_one b with rfl | rfl <;> decide

/-- What the body stores from the loop's end state, at row `r`. -/
theorem pay12_row (a b c : FVec Ideal S128x1 .f32) (r : Fin 128) :
    k0_pay12 (F := Ideal) a b c (ix2 r 0) = finish (a (ix2 r 0), b (ix2 r 0), c (ix2 r 0)) := by
  unfold k0_pay12 finish
  show Ideal.ofBits .f32 0x00000000#32 - (c (ix2 r 0) - (Ideal.log (b (ix2 r 0)) + a (ix2 r 0))) = _
  rw [Ideal.ofBits_zero_f32]

/-- The ignore-marker bit at row `r`. -/
theorem pay3_row (v0 : Vec Ideal S1x128x1 .i32) (r : Fin 128) :
    k0_pay3 (F := Ideal) v0 (ix2 r 0) = IntOp.cmpi .eq (v0 (ix3 0 r 0)) ignoreWord := by
  show IntOp.cmpi .eq (k0_pay2 (F := Ideal) v0 (ix2 r 0)) 4294967196#32 = _
  rw [pay2_at]

/-- The stored block at `(0, r, 0)`: the selected loss times the weight. -/
theorem pay1_row (v5 : IVec S128x1 1) (v23 v34 : FVec Ideal S128x1 .f32) (r : Fin 128) :
    k0_pay1 (F := Ideal) v5 v23 v34 (ix3 0 r 0)
      = Scalar.select (v5 (ix2 r 0)) (0 : EReal) (v34 (ix2 r 0)) * v23 (ix2 r 0) := by
  unfold k0_pay1
  refine (shapeCast_ab_1ab_apply _ shapeCasts_S128x1_S1x128x1 0 r 0).trans ?_
  show Scalar.select (v5 (ix2 r 0)) (Ideal.ofBits .f32 0x00000000#32) (v34 (ix2 r 0)) * v23 (ix2 r 0) = _
  rw [Ideal.ofBits_zero_f32]

/-- The `[128, 512]` table of "label equals source id", as 1 and 0. -/
def srcMask (v0 : Vec Ideal S1x128x1 .i32) (v2 : Vec Ideal S1x1x512 .i32) : FVec Ideal S128x512 .f32 :=
  select (cmpi .eq (broadcastTo S128x512 (k0_pay2 (F := Ideal) v0) broadcasts_S128x1_S128x512)
      (broadcastTo S128x512 (shapeCast S1x512 v2 shapeCasts_S1x1x512_S1x512) broadcasts_S1x512_S128x512))
    (broadcast S128x512 (Scalar.ofBits (F := Ideal) .f32 0x3F800000#32))
    (broadcast S128x512 (Scalar.ofBits (F := Ideal) .f32 0x00000000#32))

theorem srcMask_at (v0 : Vec Ideal S1x128x1 .i32) (v2 : Vec Ideal S1x1x512 .i32) (r : Fin 128) (s : Fin 512) :
    srcMask v0 v2 (ix2 r s) = if v0 (ix3 0 r 0) = v2 (ix3 0 0 s) then (1 : EReal) else 0 := by
  unfold srcMask
  show Scalar.select (IntOp.cmpi .eq (broadcastTo S128x512 (k0_pay2 (F := Ideal) v0) broadcasts_S128x1_S128x512 (ix2 r s))
        (broadcastTo S128x512 (shapeCast S1x512 v2 shapeCasts_S1x1x512_S1x512) broadcasts_S1x512_S128x512 (ix2 r s)))
      (Ideal.ofBits .f32 0x3F800000#32) (Ideal.ofBits .f32 0x00000000#32) = _
  rw [select_cmpi_eq, broadcastTo_a1_ab_apply, broadcastTo_1b_ab_apply, pay2_at, shapeCast_1ab_ab_apply,
    Ideal.ofBits_zero_f32, ofBits_one]

/-- The lane maximum of a `[128, 512]` table's row, from `−∞`. -/
theorem srcmax_at (m : FVec Ideal S128x512 .f32) (r : Fin 128) :
    multiReduction (F := Ideal) .maximumf [1] S128 m 0xFF800000#32 reduces_S128x512_S128 (.inl rfl) rfl (ix1 r)
      = (Finset.univ : Finset (Fin 512)).fold max (⊥ : EReal) (fun s => m (ix2 r s)) := by
  refine (Ideal.multiReduction_maximumf_single m _ reduces_S128x512_S128 _ _ (ix1 r)).trans ?_
  have hf : (m ∘ reduces_S128x512_S128.lift (ix1 r)) = fun s : Fin 512 => m (ix2 r s) :=
    funext fun s => congrArg m (lift512 r s)
  show (Finset.univ : Finset (Fin 512)).fold max (Ideal.ofBits .f32 0xFF800000#32)
      (m ∘ reduces_S128x512_S128.lift (ix1 r)) = _
  rw [ofBits_neg_inf, hf]
  rfl

/-- The maximum of the row of the table is positive exactly when the label is one of the source ids. -/
theorem srcmax_pos_iff (v0 : Vec Ideal S1x128x1 .i32) (v2 : Vec Ideal S1x1x512 .i32) (r : Fin 128) :
    (0 : EReal) < (Finset.univ : Finset (Fin 512)).fold max (⊥ : EReal) (fun s => srcMask v0 v2 (ix2 r s))
      ↔ ∃ s : Fin 512, v2 (ix3 0 0 s) = v0 (ix3 0 r 0) := by
  rw [Finset.lt_fold_max]
  constructor
  · rintro (h | ⟨s, _, hs⟩)
    · exact absurd h not_lt_bot
    · rw [srcMask_at] at hs
      by_cases e : v0 (ix3 0 r 0) = v2 (ix3 0 0 s)
      · exact ⟨s, e.symm⟩
      · rw [if_neg e] at hs; exact absurd hs (lt_irrefl _)
  · rintro ⟨s, hs⟩
    refine Or.inr ⟨s, Finset.mem_univ _, ?_⟩
    rw [srcMask_at, if_pos hs.symm]
    exact zero_lt_one

/-- The weight column at row `r` is the token's weight. -/
theorem pay4_row (v0 : Vec Ideal S1x128x1 .i32) (v2 : Vec Ideal S1x1x512 .i32) (r : Fin 128) :
    k0_pay4 (F := Ideal) v0 v2 (ix2 r 0) = weight (v0 (ix3 0 r 0)) (fun s => v2 (ix3 0 0 s)) := by
  unfold k0_pay4
  show Scalar.select (IntOp.ori (shapeCast S128x1 (cmpf .ogt
          (multiReduction (F := Ideal) .maximumf [1] S128 (srcMask v0 v2) 0xFF800000#32 reduces_S128x512_S128 (.inl rfl) rfl)
          (broadcast S128 (Scalar.ofBits (F := Ideal) .f32 0x00000000#32))) shapeCasts_S128_S128x1 (ix2 r 0))
        (IntOp.cmpi .eq (k0_pay2 (F := Ideal) v0 (ix2 r 0)) 0#32))
      (Ideal.ofBits .f32 0x3F800000#32) (Ideal.ofBits .f32 0x40000000#32) = _
  rw [shapeCast_a_a1_apply, pay2_at, cmpf_apply, Ideal.cmpf_def, srcmax_at, broadcast_apply, Ideal.ofBits_def,
    Ideal.ofBits_zero_f32]
  have key : IntOp.ori (Ideal.cmp .ogt
          ((Finset.univ : Finset (Fin 512)).fold max (⊥ : EReal) (fun s => srcMask v0 v2 (ix2 r s))) (0 : EReal))
        (IntOp.cmpi .eq (v0 (ix3 0 r 0)) 0#32) = 1#1
      ↔ (∃ s : Fin 512, v2 (ix3 0 0 s) = v0 (ix3 0 r 0)) ∨ v0 (ix3 0 r 0) = 0#32 := by
    rw [ori_eq_one_iff, cmpi_eq_one_iff, cmp_ogt_eq_one_iff, srcmax_pos_iff]
  unfold weight
  by_cases hP : (∃ s : Fin 512, v2 (ix3 0 0 s) = v0 (ix3 0 r 0)) ∨ v0 (ix3 0 r 0) = 0#32
  · rw [if_pos hP]; exact if_pos (key.mpr hP)
  · rw [if_neg hP]; exact if_neg (mt key.mp hP)

/-! ## The loop at one row is the recurrence -/

/-- The three carried columns at row `r`. -/
def rowState (c : FVec Ideal S128x1 .f32 × FVec Ideal S128x1 .f32 × FVec Ideal S128x1 .f32) (r : Fin 128) :
    EReal × EReal × EReal :=
  (c.1 (ix2 r 0), c.2.1 (ix2 r 0), c.2.2 (ix2 r 0))

/-- Before trip `k` the carried columns at row `r` are the recurrence's state on that row of logits. -/
theorem carried_row (v0 : Vec Ideal S1x128x1 .i32) (chunk : Fin k0_t1_loop.trips → Vec Ideal S1x128x3200 .f32)
    (row : Fin 128 → Fin 32000 → ℝ)
    (hchunk : ∀ (k : Fin k0_t1_loop.trips) (r : Fin 128) (j : Fin 3200) (hk : 3200 * k.val + j.val < 32000),
      chunk k (ix3 0 r j) = ((row r ⟨3200 * k.val + j.val, hk⟩ : ℝ) : EReal))
    (r : Fin 128) : ∀ k : ℕ, k ≤ 10 →
      rowState (carried (F := Ideal) v0 chunk k) r = run (fun u => (row r u : EReal)) (hit (v0 (ix3 0 r 0))) k
  | 0, _ => by
    show (Ideal.ofBits .f32 0xFF800000#32, Ideal.ofBits .f32 0x00000000#32, Ideal.ofBits .f32 0x00000000#32)
      = ((⊥ : EReal), (0 : EReal), (0 : EReal))
    rw [ofBits_neg_inf, Ideal.ofBits_zero_f32]
  | k + 1, hk => by
    have hk10 : k < 10 := by omega
    have hkt : k < k0_t1_loop.trips := by rw [trips_eq]; exact hk10
    have ih := carried_row v0 chunk row hchunk r k (by omega)
    have hc : carried (F := Ideal) v0 chunk (k + 1)
        = (k0_pay9 (carried v0 chunk k).1 (chunk ⟨k, hkt⟩),
           k0_pay10 (carried v0 chunk k).1 (carried v0 chunk k).2.1 (chunk ⟨k, hkt⟩),
           k0_pay11 v0 ⟨k, hkt⟩ (carried v0 chunk k).2.2 (chunk ⟨k, hkt⟩)) := by
      rw [carried]; exact dif_pos hkt
    have hr : run (fun u => (row r u : EReal)) (hit (v0 (ix3 0 r 0))) (k + 1)
        = step (fun j => (row r (vidx ⟨k, hk10⟩ j) : EReal)) (hit (v0 (ix3 0 r 0)) ⟨k, hk10⟩)
            (run (fun u => (row r u : EReal)) (hit (v0 (ix3 0 r 0))) k) := by
      rw [run]; exact dif_pos hk10
    have hy : ∀ j : Fin 3200, chunk ⟨k, hkt⟩ (ix3 0 r j) = (row r (vidx ⟨k, hk10⟩ j) : EReal) :=
      fun j => hchunk ⟨k, hkt⟩ r j (by have := j.isLt; show 3200 * k + j.val < 32000; omega)
    have h1 : (carried (F := Ideal) v0 chunk k).1 (ix2 r 0)
        = (run (fun u => (row r u : EReal)) (hit (v0 (ix3 0 r 0))) k).1 := congrArg Prod.fst ih
    have h2 : (carried (F := Ideal) v0 chunk k).2.1 (ix2 r 0)
        = (run (fun u => (row r u : EReal)) (hit (v0 (ix3 0 r 0))) k).2.1 := congrArg (fun p => p.2.1) ih
    have h3 : (carried (F := Ideal) v0 chunk k).2.2 (ix2 r 0)
        = (run (fun u => (row r u : EReal)) (hit (v0 (ix3 0 r 0))) k).2.2 := congrArg (fun p => p.2.2) ih
    have hyf : (fun j : Fin 3200 => chunk ⟨k, hkt⟩ (ix3 0 r j)) = fun j => (row r (vidx ⟨k, hk10⟩ j) : EReal) :=
      funext hy
    have e9 : k0_pay9 (F := Ideal) (carried v0 chunk k).1 (chunk ⟨k, hkt⟩) (ix2 r 0)
        = max (run (fun u => (row r u : EReal)) (hit (v0 (ix3 0 r 0))) k).1
            ((Finset.univ : Finset (Fin 3200)).fold max (⊥ : EReal) (fun j => (row r (vidx ⟨k, hk10⟩ j) : EReal))) := by
      rw [pay9_row, h1, hyf]
    rw [hc, hr]
    unfold rowState step
    refine Prod.ext e9 (Prod.ext ?_ ?_)
    · show k0_pay10 (F := Ideal) (carried v0 chunk k).1 (carried v0 chunk k).2.1 (chunk ⟨k, hkt⟩) (ix2 r 0) = _
      rw [pay10_row, e9, h1, h2]
      exact congrArg (_ + ·) (Finset.sum_congr rfl fun j _ => by rw [hy j])
    · show k0_pay11 (F := Ideal) v0 ⟨k, hkt⟩ (carried v0 chunk k).2.2 (chunk ⟨k, hkt⟩) (ix2 r 0) = _
      rw [pay11_row, h3]
      exact congrArg (_ + ·) (Finset.sum_congr rfl fun j _ => by rw [hy j]; rfl)

/-- The target's lane is the lane of the target's vocabulary index: the safe label is below 32000 and the chunk
    offsets are below 2³¹, so the word subtraction does not wrap. -/
theorem hit_iff (t : BitVec 32) (ht : LabelOk t) (c : Fin 10) (j : Fin 3200) :
    hit t c j ↔ vidx c j = tgtIdx (safe t) := by
  have hs : (safe t).toNat < 32000 := by
    unfold safe
    by_cases e : t = ignoreWord
    · rw [if_pos e]; decide
    · rw [if_neg e]; rcases ht with h | h
      · exact absurd h e
      · exact h
  have hc := c.isLt
  have hj := j.isLt
  have ho : (offs c.val).toNat = 3200 * c.val := by
    show ((0#32 + BitVec.ofNat 32 c.val * 1#32) * 3200#32).toNat = _
    simp only [BitVec.toNat_mul, BitVec.toNat_add, BitVec.toNat_ofNat]
    omega
  unfold hit vidx tgtIdx
  rw [Fin.mk.injEq, ← BitVec.toNat_inj, BitVec.toNat_sub, BitVec.toNat_ofNat, ho]
  omega

/-- THE ROW: the stored block at `(0, r, 0)` is the token's weighted loss. -/
theorem stored_row (v0 : Vec Ideal S1x128x1 .i32) (v2 : Vec Ideal S1x1x512 .i32)
    (chunk : Fin k0_t1_loop.trips → Vec Ideal S1x128x3200 .f32) (row : Fin 128 → Fin 32000 → ℝ)
    (hchunk : ∀ (k : Fin k0_t1_loop.trips) (r : Fin 128) (j : Fin 3200) (hk : 3200 * k.val + j.val < 32000),
      chunk k (ix3 0 r j) = ((row r ⟨3200 * k.val + j.val, hk⟩ : ℝ) : EReal))
    (hlab : ∀ r : Fin 128, LabelOk (v0 (ix3 0 r 0))) (r : Fin 128) :
    stored (F := Ideal) v0 v2 chunk (ix3 0 r 0)
      = tokenLoss (fun u => (row r u : EReal)) (v0 (ix3 0 r 0)) (fun s => v2 (ix3 0 0 s)) := by
  have hfin : finish (rowState (carried (F := Ideal) v0 chunk k0_t1_loop.trips) r)
      = ((nll (row r) (tgtIdx (safe (v0 (ix3 0 r 0)))) : ℝ) : EReal) := by
    rw [trips_eq, carried_row v0 chunk row hchunk r 10 le_rfl]
    exact run_final (row r) _ (hit (v0 (ix3 0 r 0))) (hit_iff _ (hlab r))
  unfold stored
  rw [pay1_row, pay3_row, pay4_row, pay12_row]
  show Scalar.select (IntOp.cmpi .eq (v0 (ix3 0 r 0)) ignoreWord) (0 : EReal)
      (finish (rowState (carried (F := Ideal) v0 chunk k0_t1_loop.trips) r)) * _ = _
  rw [hfin, select_cmpi_eq]
  unfold tokenLoss
  by_cases e : v0 (ix3 0 r 0) = ignoreWord
  · rw [if_pos e, if_pos e]
  · rw [if_neg e, if_neg e, show safe (v0 (ix3 0 r 0)) = v0 (ix3 0 r 0) from if_neg e]
    simp only [EReal.toReal_coe]

end Cert.KernelIdeal.Body

end
-- ==== Proof.KernelBody.lean ====
/-
  What the kernel body leaves in its output block, as a closed term of the three input blocks.

  The body's run carries the loop as a recursion over the trips whose step is each trip's yield; a trip loads columns
  [3200 k, 3200 k + 3200) of the logits block and yields the three payloads of the carried columns and that chunk
  (`tripR_eq`), so the recursion is `carried` (`st_eq`), and the one store after the loop, through the whole output
  block, leaves `stored` of the label column, the source-id row and the chunks (`out0_eq`). `chunkAt_apply` reads a
  chunk at a lane: the logits block at column 3200 k + j.
-/
import proofs.«412151_j47029891891462_3_alg».proof.Proof.Gen.KernelIdeal.Frame
import proofs.«412151_j47029891891462_3_alg».proof.Proof.Carried
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The chunk trip `k` loads: the logits block's columns [3200 k, 3200 k + 3200), read off the contents `X`. -/
def chunkAt (arg2 : Memref sig .tc .vmem S1x128x32000 .f32) (X : BufTy.Contents (Elt F) arg2.view.ty)
    (k : Fin k0_t1_loop.trips) : Vec F S1x128x3200 .f32 :=
  View.readAt (Elt F) arg2.view (Rect.unit (s := S1x128x32000) (k0_off1 k) S1x128x3200.size (k0_off1_inb k)).toLoadRect X

/-- One trip's yield: the three payloads of the carried columns and the chunk the trip loads. -/
theorem tripR_eq (𝒱 : Variants) (c : Dev nD) (bd : Option 𝒱.V) (i : grid0.Coords) (arg2 : Memref sig .tc .vmem S1x128x32000 .f32) (harg2 : arg2.IsWhole) (arg3 : Memref sig .tc .vmem S1x128x1 .i32) (harg3 : arg3.IsWhole) (arg4 : Memref sig .tc .vmem S1x1x512 .i32) (harg4 : arg4.IsWhole) (arg5 : Memref sig .tc .vmem S1x128x1 .f32) (harg5 : arg5.IsWhole)
    (v0 : Vec F S1x128x1 .i32) (X : BufTy.Contents (Elt F) arg2.view.ty) (k : Fin k0_t1_loop.trips)
    (acc : FVec F S128x1 .f32 × FVec F S128x1 .f32 × FVec F S128x1 .f32) :
    tripR_k0_t1 (F := F) 𝒱 c bd i arg2 harg2 arg3 harg3 arg4 harg4 arg5 harg5 v0 X k acc
      = (k0_pay9 acc.1 (chunkAt arg2 X k), k0_pay10 acc.1 acc.2.1 (chunkAt arg2 X k), k0_pay11 v0 k acc.2.2 (chunkAt arg2 X k)) := by
  unfold tripR_k0_t1 trip_k0_t1
  dsimp only
  sl_unfold_words
  rfl

/-- The run's recursion over the trips is `carried` over the loaded chunks. -/
theorem st_eq (𝒱 : Variants) (c : Dev nD) (bd : Option 𝒱.V) (i : grid0.Coords) (arg2 : Memref sig .tc .vmem S1x128x32000 .f32) (harg2 : arg2.IsWhole) (arg3 : Memref sig .tc .vmem S1x128x1 .i32) (harg3 : arg3.IsWhole) (arg4 : Memref sig .tc .vmem S1x1x512 .i32) (harg4 : arg4.IsWhole) (arg5 : Memref sig .tc .vmem S1x128x1 .f32) (harg5 : arg5.IsWhole)
    (v0 : Vec F S1x128x1 .i32) (X : BufTy.Contents (Elt F) arg2.view.ty) (n : ℕ) :
    st_k0_t1 (F := F) 𝒱 c bd i arg2 harg2 arg3 harg3 arg4 harg4 arg5 harg5 v0 X (k0_pay5 (F := F), k0_pay6 (F := F), k0_pay7 (F := F)) n
      = carried v0 (chunkAt arg2 X) n := by
  induction n with
  | zero => rfl
  | succ n ih =>
    rw [st_k0_t1.eq_2, carried]
    unfold st_k0_t1Step
    by_cases h : n < k0_t1_loop.trips
    · rw [dif_pos h, dif_pos h, tripR_eq, ih]
    · rw [dif_neg h, dif_neg h, ih]

/-- The zero offsets of a whole-block access, as the constant function. -/
theorem hz3 : (![0, 0, 0] : Fin 3 → Nat) = fun _ => 0 := by
  funext a; match a with | ⟨0, _⟩ => rfl | ⟨1, _⟩ => rfl | ⟨2, _⟩ => rfl

/-- The block the body leaves in its output's staging buffer is `stored` of the three input blocks. -/
theorem out0_eq (c : Dev nD) (i : grid0.Coords) (arg2 : Memref sig .tc .vmem S1x128x32000 .f32) (harg2 : arg2.IsWhole) (arg3 : Memref sig .tc .vmem S1x128x1 .i32) (harg3 : arg3.IsWhole) (arg4 : Memref sig .tc .vmem S1x1x512 .i32) (harg4 : arg4.IsWhole) (arg5 : Memref sig .tc .vmem S1x128x1 .f32) (harg5 : arg5.IsWhole)
    (x0 : Vec F S1x128x32000 .f32) (x1 : Vec F S1x128x1 .i32) (x2 : Vec F S1x1x512 .i32) :
    out0_A_3 (F := F) c i arg2 harg2 arg3 harg3 arg4 harg4 arg5 harg5 x0 x1 x2
      = stored x1 x2 (chunkAt arg2 (harg2.unread x0)) := by
  unfold out0_A_3
  rw [View.read_writes_eq_canon _ _ _ (cover0_A_3 c i arg2 harg2 arg3 harg3 arg4 harg4 arg5 harg5 x0 x1 x2)]
  unfold kernelRun0_A
  dsimp only
  sl_unfold_words
  rw [View.canon_unit_zero hz3]
  simp only [View.readAt_eq_ld, harg3.read_unread, harg4.read_unread, View.ld_unit_zero (S := S1x128x1) hz3,
    View.ld_unit_zero (S := S1x1x512) hz3, st_eq]
  rfl

/-- Lane `j` of row `r` of the chunk trip `k` loads is the logits block at column `3200 k + j`. -/
theorem chunkAt_apply (arg2 : Memref sig .tc .vmem S1x128x32000 .f32) (harg2 : arg2.IsWhole) (x0 : Vec F S1x128x32000 .f32)
    (k : Fin k0_t1_loop.trips) (r : Fin 128) (j : Fin 3200) (hk : 3200 * k.val + j.val < 32000) :
    chunkAt arg2 (harg2.unread x0) k (ValueIdx.ix3 0 r j) = x0 (ValueIdx.ix3 0 r ⟨3200 * k.val + j.val, hk⟩) := by
  unfold chunkAt
  rw [View.readAt_eq_ld, harg2.read_unread]
  show x0 ((Rect.unit (s := S1x128x32000) (k0_off1 k) S1x128x3200.size (k0_off1_inb k)).idx (ValueIdx.ix3 0 r j)) = _
  congr 1
  funext a
  apply Fin.ext
  have e := k0_off1_eq k
  match a with
  | ⟨0, _⟩ => show (k0_off1 k) 0 + 1 * 0 = 0; rw [e]; rfl
  | ⟨1, _⟩ => show (k0_off1 k) 1 + 1 * r.val = r.val; rw [e]; show 0 + 1 * r.val = r.val; omega
  | ⟨2, _⟩ => show (k0_off1 k) 2 + 1 * j.val = 3200 * k.val + j.val; rw [e]; show 3200 * k.val + 1 * j.val = _; omega

end Cert.KernelIdeal.Body
end
-- ==== Proof.KernelValue.lean ====
/-
  The kernel program's value: its result is the mean of the per-token losses.

  The region's grid is (batch row b, row block p): point (b, p) reads rows [128 p, 128 p + 128) of batch row b of the
  logits and the labels, and batch row b of the source ids (`idx_facts`, `iblk0_apply` … `iblk2_apply`), and writes
  back rows [128 p, 128 p + 128) of batch row b of the result array [8, 1024, 1]. What the body leaves in the block is
  `stored` of the three input blocks (KernelBody), which at row r is the loss of token (b, 128 p + r) (PayRow, under
  finite logits and admissible labels): `flushed_eq`. The 64 blocks tile the result array (`cover`), so it ends holding
  every token's loss (`final`); the host operations after the region drop the unit axis, sum from zero and divide by
  8192 (`tail_eq`, `meanOf`), and `run` reads the generated frame run's post accordingly.
-/
import proofs.«412151_j47029891891462_3_alg».proof.Proof.Gen.KernelIdeal.Frame
import proofs.«412151_j47029891891462_3_alg».proof.Proof.PayRow
import proofs.«412151_j47029891891462_3_alg».proof.Proof.KernelBody
import proofs.«412151_j47029891891462_3_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen Cert.KernelIdeal.Body Cert.TokenLoss
open Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ) (ρ : Dev nD → PrngReg)

/-- The three argument arrays on core `c`. -/
abbrev A0 (c : Dev nD) : S8x1024x32000.Idx → EReal := m ((c : Thread nD τ).loc main_arg0)
abbrev A1 (c : Dev nD) : S8x1024.Idx → BitVec 32 := m ((c : Thread nD τ).loc main_arg1)
abbrev A2 (c : Dev nD) : S8x512.Idx → BitVec 32 := m ((c : Thread nD τ).loc main_arg2)

/-- What the kernel's result array [8, 1024, 1] ends holding: each token's loss. -/
def G (c : Dev nD) : S8x1024x1.Idx → EReal := fun i =>
  tokenLoss (fun u => A0 m c (ix3 (i 0) (i 1) u)) (A1 m c (ix2 (i 0) (i 1))) (fun s => A2 m c (ix2 (i 0) s))

/-- The labels as the region finds them: the [8,1024] array with a unit axis added. -/
theorem V_v0 (c : Dev nD) : (V m c main_v0 : S8x1024x1.Idx → BitVec 32)
    = broadcastInDim S8x1024x1 ![0, 1] bcast_S8x1024_S8x1024x1_0_1 (A1 m c) := by
  show StableHlo.after hostOps0 (fun b => m (c, b)) (Proc.devRef .tc main_v0) = _
  after_results

/-- The source ids as the region finds them: the [8,512] array with a unit axis inserted. -/
theorem V_v1 (c : Dev nD) : (V m c main_v1 : S8x1x512.Idx → BitVec 32)
    = broadcastInDim S8x1x512 ![0, 2] bcast_S8x512_S8x1x512_0_2 (A2 m c) := by
  show StableHlo.after hostOps0 (fun b => m (c, b)) (Proc.devRef .tc main_v1) = _
  after_results

theorem V_v0_apply (c : Dev nD) (b : Fin 8) (q : Fin 1024) : (V m c main_v0 : S8x1024x1.Idx → BitVec 32) (ix3 b q 0) = A1 m c (ix2 b q) := by
  rw [V_v0]
  exact broadcastInDim_apply _ bcast_S8x1024_S8x1024x1_0_1 (A1 m c) (ix3 b q 0) (ix2 b q) (fun a => by
    match a with | ⟨0, _⟩ => rfl | ⟨1, _⟩ => rfl)

theorem V_v1_apply (c : Dev nD) (b : Fin 8) (s : Fin 512) : (V m c main_v1 : S8x1x512.Idx → BitVec 32) (ix3 b 0 s) = A2 m c (ix2 b s) := by
  rw [V_v1]
  exact broadcastInDim_apply _ bcast_S8x512_S8x1x512_0_2 (A2 m c) (ix3 b 0 s) (ix2 b s) (fun a => by
    match a with | ⟨0, _⟩ => rfl | ⟨1, _⟩ => rfl)

/-- The printed index maps over the grid: the logits, label and result windows move together over (batch row, row
    block); the source-id window follows the batch row only. -/
theorem idx_facts : ∀ t : Fin cfg0.N,
    win0_3.index t (0 : Fin 3) ≤ 7 ∧ win0_3.index t (1 : Fin 3) ≤ 7 ∧ win0_3.index t (2 : Fin 3) = 0
    ∧ win0_0.index t (0 : Fin 3) = win0_3.index t (0 : Fin 3) ∧ win0_0.index t (1 : Fin 3) = win0_3.index t (1 : Fin 3) ∧ win0_0.index t (2 : Fin 3) = 0
    ∧ win0_1.index t (0 : Fin 3) = win0_3.index t (0 : Fin 3) ∧ win0_1.index t (1 : Fin 3) = win0_3.index t (1 : Fin 3) ∧ win0_1.index t (2 : Fin 3) = 0
    ∧ win0_2.index t (0 : Fin 3) = win0_3.index t (0 : Fin 3) ∧ win0_2.index t (1 : Fin 3) = 0 ∧ win0_2.index t (2 : Fin 3) = 0 :=
  (by decide +kernel : ∀ t : Fin grid0.N, _)

/-- Every (batch row, row block) is some point's. -/
theorem idx_onto : ∀ (q0 : Fin 8) (q1 : Fin 8), ∃ t : Fin cfg0.N, win0_3.index t = ![q0.val, q1.val, 0] :=
  (by decide +kernel : ∀ (q0 : Fin 8) (q1 : Fin 8), ∃ t : Fin grid0.N, win0_3.index t = ![q0.val, q1.val, 0])

/-- Row `r`, column `u` of the logits block at point `t` is the argument at (batch row, 128 · row block + r, u). -/
theorem iblk0_apply (c : Dev nD) (t : Fin cfg0.N) (r : Fin 128) (u : Fin 32000) (k : S8x1024x32000.Idx)
    (hk0 : (k 0).val = win0_3.index t (0 : Fin 3)) (hk1 : (k 1).val = win0_3.index t (1 : Fin 3) * 128 + r.val) (hk2 : (k 2).val = u.val) :
    (iblk m c 0 t : Vec Ideal S1x128x32000 .f32) (ix3 0 r u) = A0 m c k := by
  obtain ⟨-, -, -, e0, e1, e2, -⟩ := idx_facts t
  unfold iblk
  rw [View.read_apply]
  show V m c main_arg0 _ = _
  rw [V_main_arg0]
  congr 1
  funext a
  apply Fin.ext
  match a with
  | ⟨0, _⟩ => show win0_0.index t (0 : Fin 3) * 1 + 1 * 0 = (k 0).val; omega
  | ⟨1, _⟩ => show win0_0.index t (1 : Fin 3) * 128 + 1 * r.val = (k 1).val; omega
  | ⟨2, _⟩ => show win0_0.index t (2 : Fin 3) * 32000 + 1 * u.val = (k 2).val; omega

/-- Row `r` of the label block at point `t` is the label of token (batch row, 128 · row block + r). -/
theorem iblk1_apply (c : Dev nD) (t : Fin cfg0.N) (r : Fin 128) (b : Fin 8) (q : Fin 1024)
    (hb : b.val = win0_3.index t (0 : Fin 3)) (hq : q.val = win0_3.index t (1 : Fin 3) * 128 + r.val) :
    (iblk m c 1 t : Vec Ideal S1x128x1 .i32) (ix3 0 r 0) = A1 m c (ix2 b q) := by
  obtain ⟨-, -, -, -, -, -, e0, e1, e2, -⟩ := idx_facts t
  rw [← V_v0_apply m c b q]
  unfold iblk
  rw [View.read_apply]
  show V m c main_v0 _ = _
  congr 1
  funext a
  apply Fin.ext
  match a with
  | ⟨0, _⟩ => show win0_1.index t (0 : Fin 3) * 1 + 1 * 0 = b.val; omega
  | ⟨1, _⟩ => show win0_1.index t (1 : Fin 3) * 128 + 1 * r.val = q.val; omega
  | ⟨2, _⟩ => show win0_1.index t (2 : Fin 3) * 1 + 1 * 0 = 0; omega

/-- Entry `s` of the source-id block at point `t` is source id `s` of the batch row. -/
theorem iblk2_apply (c : Dev nD) (t : Fin cfg0.N) (s : Fin 512) (b : Fin 8) (hb : b.val = win0_3.index t (0 : Fin 3)) :
    (iblk m c 2 t : Vec Ideal S1x1x512 .i32) (ix3 0 0 s) = A2 m c (ix2 b s) := by
  obtain ⟨-, -, -, -, -, -, -, -, -, e0, e1, e2⟩ := idx_facts t
  rw [← V_v1_apply m c b s]
  unfold iblk
  rw [View.read_apply]
  show V m c main_v1 _ = _
  congr 1
  funext a
  apply Fin.ext
  match a with
  | ⟨0, _⟩ => show win0_2.index t (0 : Fin 3) * 1 + 1 * 0 = b.val; omega
  | ⟨1, _⟩ => show win0_2.index t (1 : Fin 3) * 1 + 1 * 0 = 0; omega
  | ⟨2, _⟩ => show win0_2.index t (2 : Fin 3) * 512 + 1 * s.val = s.val; omega

/-- WHAT POINT `t` WRITES BACK is block `t` of the per-token losses. -/
theorem flushed_eq (hfin : ∀ c i, ∃ r : ℝ, A0 m c i = (r : EReal)) (hlab : ∀ c i, LabelOk (A1 m c i)) (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  unfold outsAt0
  rw [out0_eq]
  obtain ⟨h0, h1, h2, -⟩ := idx_facts t
  refine funext fun (y : S1x128x1.Idx) => ?_
  obtain ⟨r, rfl⟩ : ∃ r : Fin 128, y = ix3 (0 : Fin 1) r (0 : Fin 1) :=
    ⟨y 1, by
      funext a
      match a with
      | ⟨0, _⟩ => exact Fin.ext (by have h : (y 0).val < 1 := (y 0).isLt; show (y 0).val = 0; omega)
      | ⟨1, _⟩ => rfl
      | ⟨2, _⟩ => exact Fin.ext (by have h : (y 2).val < 1 := (y 2).isLt; show (y 2).val = 0; omega)⟩
  have hb : win0_3.index t (0 : Fin 3) < 8 := by omega
  have hq : win0_3.index t (1 : Fin 3) * 128 + r.val < 1024 := by have := r.isLt; omega
  show stored (F := Ideal) (iblk m c 1 t) (iblk m c 2 t) (chunkAt (ms0_0 t) ((hs0_0 t).unread (iblk m c 0 t))) (ix3 0 r 0) = _
  rw [View.read_apply]
  have hemb : ((cfg0.win 3).blk t).view.emb (ix3 (0 : Fin 1) r (0 : Fin 1))
      = (ix3 (⟨win0_3.index t (0 : Fin 3), hb⟩ : Fin 8) (⟨win0_3.index t (1 : Fin 3) * 128 + r.val, hq⟩ : Fin 1024) (0 : Fin 1) : S8x1024x1.Idx) := by
    funext a
    apply Fin.ext
    match a with
    | ⟨0, _⟩ => show win0_3.index t (0 : Fin 3) * 1 + 1 * 0 = win0_3.index t (0 : Fin 3); omega
    | ⟨1, _⟩ => show win0_3.index t (1 : Fin 3) * 128 + 1 * r.val = win0_3.index t (1 : Fin 3) * 128 + r.val; omega
    | ⟨2, _⟩ => show win0_3.index t (2 : Fin 3) * 1 + 1 * 0 = 0; omega
  show _ = G m c (((cfg0.win 3).blk t).view.emb (ix3 (0 : Fin 1) r (0 : Fin 1)))
  rw [hemb]
  have hrow : ∀ (r' : Fin 128) (u : Fin 32000), (iblk m c 0 t : Vec Ideal S1x128x32000 .f32) (ix3 0 r' u)
      = ((((iblk m c 0 t : Vec Ideal S1x128x32000 .f32) (ix3 0 r' u)).toReal : ℝ) : EReal) := by
    intro r' u
    have hq' : win0_3.index t (1 : Fin 3) * 128 + r'.val < 1024 := by have := r'.isLt; omega
    rw [iblk0_apply m c t r' u (ix3 (⟨win0_3.index t (0 : Fin 3), hb⟩ : Fin 8) (⟨win0_3.index t (1 : Fin 3) * 128 + r'.val, hq'⟩ : Fin 1024) u) rfl rfl rfl]
    obtain ⟨x, hx⟩ := hfin c (ix3 (⟨win0_3.index t (0 : Fin 3), hb⟩ : Fin 8) (⟨win0_3.index t (1 : Fin 3) * 128 + r'.val, hq'⟩ : Fin 1024) u)
    rw [hx, EReal.toReal_coe]
  rw [stored_row (iblk m c 1 t) (iblk m c 2 t) (chunkAt (ms0_0 t) ((hs0_0 t).unread (iblk m c 0 t)))
    (fun r' u => ((iblk m c 0 t : Vec Ideal S1x128x32000 .f32) (ix3 0 r' u)).toReal)
    (fun k r' j hk => by rw [chunkAt_apply (ms0_0 t) (hs0_0 t) (iblk m c 0 t) k r' j hk]; exact hrow r' _)
    (fun r' => by
      have hq' : win0_3.index t (1 : Fin 3) * 128 + r'.val < 1024 := by have := r'.isLt; omega
      rw [iblk1_apply m c t r' ⟨win0_3.index t (0 : Fin 3), hb⟩ ⟨win0_3.index t (1 : Fin 3) * 128 + r'.val, hq'⟩ rfl rfl]
      exact hlab c _) r]
  unfold G
  congr 1
  · funext u
    rw [← hrow r u]
    exact iblk0_apply m c t r u _ rfl rfl rfl
  · exact iblk1_apply m c t r _ _ rfl rfl
  · funext s
    exact iblk2_apply m c t s _ rfl

/-- An index of the result array is in point `t`'s block iff each coordinate is in the block's range on its axis. -/
theorem mem_blk (t : Fin cfg0.N) (i : S8x1024x1.Idx) :
    i ∈ ((cfg0.win 3).blk t).view.set ↔ ∀ a : Fin 3, win0_3.index t a * S1x128x1.size a ≤ (i a).val ∧ (i a).val < win0_3.index t a * S1x128x1.size a + S1x128x1.size a := by
  show i ∈ ((View.whole main_v2).slice (win0_3.rect t)).set ↔ _
  rw [View.set_slice_whole, Rect.mem_set_unit]
  exact Iff.rfl

/-- The blocks tile the result array: token (b, q) lies in the block of point (b, q / 128). -/
theorem cover (i : S8x1024x1.Idx) : ∃ t : Fin cfg0.N, (cfg0.win 3).flush t = true ∧ i ∈ ((cfg0.win 3).blk t).view.set := by
  have hi0 : (i 0).val < 8 := (i 0).isLt
  have hi1 : (i 1).val < 1024 := (i 1).isLt
  have hi2 : (i 2).val < 1 := (i 2).isLt
  obtain ⟨t, ht⟩ := idx_onto ⟨(i 0).val, hi0⟩ ⟨(i 1).val / 128, by omega⟩
  have q0 : win0_3.index t (0 : Fin 3) = (i 0).val := congrFun ht 0
  have q1 : win0_3.index t (1 : Fin 3) = (i 1).val / 128 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 128 ≤ (i 1).val ∧ (i 1).val < win0_3.index t (1 : Fin 3) * 128 + 128; omega
  | ⟨2, _⟩ => show win0_3.index t (2 : Fin 3) * 1 ≤ (i 2).val ∧ (i 2).val < win0_3.index t (2 : Fin 3) * 1 + 1; omega

/-- THE RESULT ARRAY after the region: every token's loss. -/
theorem final (hfin : ∀ c i, ∃ r : ℝ, A0 m c i = (r : EReal)) (hlab : ∀ c i, LabelOk (A1 m c i)) (c : Dev nD) :
    (dats m 0 c).arrAt 3 cfg0.N = G m c :=
  (dats m 0 c).arrAt_eq_of_cover 3 (G m c) (fun t _ => flushed_eq m hfin hlab c t) cover

/-- Each token's loss as an [8, 1024] array: the result array with its unit axis dropped. -/
def perToken (c : Dev nD) : S8x1024.Idx → EReal := fun i =>
  tokenLoss (fun u => A0 m c (ix3 (i 0) (i 1) u)) (A1 m c i) (fun s => A2 m c (ix2 (i 0) s))

/-- The mean over all 8192 tokens, as both programs end: the sum from zero, divided by 8192. -/
def meanOf (y : S8x1024.Idx → EReal) : S_.Idx → EReal :=
  Host.divf (F := Ideal) (Host.reduceAdd (F := Ideal) (φ := .f32) y (constant (F := Ideal) S_ .f32 0x00000000#32) reducesTo_S8x1024_S_d0_1 h_S_)
    (constant (F := Ideal) S_ .f32 0x46000000#32)

/-- The result array with its unit axis dropped is the per-token losses. -/
theorem reshape_G (c : Dev nD) (i : S8x1024.Idx) :
    shapeCast S8x1024 (G m c) shapeCasts_S8x1024x1_S8x1024 i = perToken m c i := by
  rw [shapeCast_apply (G m c) shapeCasts_S8x1024x1_S8x1024 i (ix3 (i 0) (i 1) 0) (by
    rw [Shape.rowMajor_val_three, Shape.rowMajor_val_two]
    show ((i 0).val * 1024 + (i 1).val) * 1 + 0 = (i 0).val * 1024 + (i 1).val
    omega)]
  unfold G perToken
  exact congrArg (fun j : S8x1024.Idx => tokenLoss (fun u => A0 m c (ix3 (i 0) (i 1) u)) (A1 m c j) (fun s => A2 m c (ix2 (i 0) s))) (eq_ix2 i).symm

/-- The program's result after the host operations that follow the region: the mean of the per-token losses. -/
theorem tail_eq (hfin : ∀ c i, ∃ r : ℝ, A0 m c i = (r : EReal)) (hlab : ∀ c i, LabelOk (A1 m c i)) (c : Dev nD) :
    (Pipeline.afterTail₀ cfgs (dats m) 0 (V0 m) [hostOps1] c main_v5 : S_.Idx → EReal) = meanOf (perToken m c) := by
  unfold Pipeline.afterTail₀
  simp only [List.flatten_cons, List.flatten_nil, List.append_nil]
  after_results
  have hW : (Pipeline.withArrays (cfgs 0).spec c (V0 m c) (fun w => (dats m 0 c).arrAt w (cfgs 0).N) (Proc.devRef .tc main_v2) : S8x1024x1.Idx → EReal) = G m c :=
    (Pipeline.withArrays_arr spec0 launch0.win.arr_inj c _ _ 3).trans (final m hfin hlab c)
  rw [hW]
  unfold meanOf
  refine congrArg (fun y : S8x1024.Idx → EReal => Host.divf (F := Ideal) (Host.reduceAdd (F := Ideal) (φ := .f32) y (constant (F := Ideal) S_ .f32 0x00000000#32) reducesTo_S8x1024_S_d0_1 h_S_) (constant (F := Ideal) S_ .f32 0x46000000#32)) ?_
  funext i
  exact reshape_G m c i

/-- THE KERNEL PROGRAM'S RUN, READ: it ends with its result at the mean of the per-token losses, its arguments unchanged. -/
theorem run (hfin : ∀ c i, ∃ r : ℝ, A0 m c i = (r : EReal)) (hlab : ∀ c i, LabelOk (A1 m c i)) :
    θ_run defs (onTc (τ := τ) (main (F := Ideal))) ⟨m, fun _ => 0, ρ⟩ fun r => ∀ c : Dev nD,
      r.2.mem ((c.tc : Thread nD τ).loc main_v5) = meanOf (perToken m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans (tail_eq m hfin hlab c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Hand
end
-- ==== Proof.RefRow.lean ====
/-
  The reference's per-token value, read at one token, is the token's loss.

  At token (b, q) with label t the reference multiplies two numbers. The first is zero when t is the ignore marker and
  otherwise minus the log-softmax of the token's row at the class t: the row's maximum M (joined with −∞) is a real,
  the log-softmax at u is (x_u − M) − log (0 + ∑ exp (x − M)), the label is a class in range so the index fix-up
  and the range test of take_along_axis leave it alone and the gather reads the log-softmax at (b, q, t). The second
  is the weight word: an "or" over the 512 comparisons of t with the batch row's source ids, joined with t = 0.
-/
import proofs.«412151_j47029891891462_3_alg».proof.Proof.RefRead
import proofs.«412151_j47029891891462_3_alg».proof.Proof.Math
import Idealize.ShloMosaic.Lib.ValueIdx
import Idealize.ShloMosaic.Lib.Pipeline.Value
import Idealize.ShloMosaic.PureOps.Ideal.Laws
import Idealize.ShloMosaic.PureOps.Reduce
import Idealize.ShloMosaic.Lib.StableHlo.Predicate

noncomputable section

open scoped BigOperators

namespace Cert.ReferenceIdeal.RefRow

open Cert.ReferenceIdeal Cert.ReferenceIdeal.Gen Cert.ReferenceIdeal.ReadP Cert.TokenLoss Idealize.ShloMosaic
  Idealize.ShloMosaic.ValueIdx Idealize.ShloMosaic.StableHlo.Predicate

/-! ### The four reductions and the gather, read at a token -/

/-- One-bit words: an "or" is 1 exactly when one of the two is. -/
theorem ori_eq_one_iff (a b : BitVec 1) : IntOp.ori a b = 1#1 ↔ a = 1#1 ∨ b = 1#1 := by
  revert a b; decide

/-- An "or" folded from 0 over a finite family of bits is 1 exactly when some bit is. -/
theorem fold_ori_eq_one_iff {ι : Type} (s : Finset ι) (p : ι → BitVec 1) :
    s.fold IntOp.ori 0#1 p = 1#1 ↔ ∃ k ∈ s, p k = 1#1 := by
  classical
  refine Finset.induction_on s ?_ ?_
  · simp
  · intro a s ha ih
    rw [Finset.fold_insert ha, ori_eq_one_iff, ih]
    simp [Finset.mem_insert]

/-- The or-reduce over the source axis, at token (b, q): the fold of the 512 bits from the initial bit. -/
theorem reduce_ori_apply (y : (⟨S8x1024x512, .i1⟩ : BufTy).Contents (Elt Ideal))
    (init : (⟨S_, .i1⟩ : BufTy).Contents (Elt Ideal)) (b : Fin 8) (q : Fin 1024) :
    Host.reduce IntOp.ori y init reducesTo_S8x1024x512_S8x1024_d2 h_S_ (ix2 b q)
      = (Finset.univ : Finset (Fin 512)).fold IntOp.ori (init (Shape.Idx.first h_S_)) (fun s => y (ix3 b q s)) := by
  rw [Host.reduce_eq_fold_single IntOp.ori y init reducesTo_S8x1024x512_S8x1024_d2 (by decide) h_S_ (ix2 b q)]
  refine Finset.fold_congr (fun k _ => ?_)
  exact congrArg y (funext fun a => Fin.ext (by match a with | ⟨0, _⟩ => rfl | ⟨1, _⟩ => rfl | ⟨2, _⟩ => rfl))

/-- The max-reduce over the vocabulary axis, at token (b, q): the row's maximum folded from the initial value. -/
theorem reduce_max_apply (x0 : (⟨S8x1024x32000, .f32⟩ : BufTy).Contents (Elt Ideal))
    (init : (⟨S_, .f32⟩ : BufTy).Contents (Elt Ideal)) (b : Fin 8) (q : Fin 1024) :
    Host.reduce (FloatOps.maximumf (F := Ideal) (φ := .f32)) x0 init reducesTo_S8x1024x32000_S8x1024_d2 h_S_ (ix2 b q)
      = (Finset.univ : Finset (Fin 32000)).fold max (init (Shape.Idx.first h_S_)) (fun u => x0 (ix3 b q u)) := by
  rw [Host.reduce_eq_fold_single (FloatOps.maximumf (F := Ideal) (φ := .f32)) x0 init
    reducesTo_S8x1024x32000_S8x1024_d2 (by decide) h_S_ (ix2 b q)]
  refine Finset.fold_congr (fun k _ => ?_)
  exact congrArg x0 (funext fun a => Fin.ext (by match a with | ⟨0, _⟩ => rfl | ⟨1, _⟩ => rfl | ⟨2, _⟩ => rfl))

/-- The and-reduce over the unit axis, at (b, q, 0): the one bit joined with the initial bit. -/
theorem reduce_andi_unit (p : (⟨S8x1024x1x1, .i1⟩ : BufTy).Contents (Elt Ideal))
    (init : (⟨S_, .i1⟩ : BufTy).Contents (Elt Ideal)) (b : Fin 8) (q : Fin 1024) :
    Host.reduce IntOp.andi p init reducesTo_S8x1024x1x1_S8x1024x1_d3 h_S_ (ix3 b q (0 : Fin 1))
      = IntOp.andi (p (ix4 b q (0 : Fin 1) (0 : Fin 1))) (init (Shape.Idx.first h_S_)) := by
  rw [Host.reduce_eq_fold_single IntOp.andi p init reducesTo_S8x1024x1x1_S8x1024x1_d3 (by decide) h_S_ (ix3 b q 0)]
  refine (Finset.fold_singleton (op := IntOp.andi) (f := _) (b := _) (a := (0 : Fin 1))).trans ?_
  exact congrArg (fun i => IntOp.andi (p i) _) (funext fun a => Fin.ext (by
    match a with | ⟨0, _⟩ => rfl | ⟨1, _⟩ => rfl | ⟨2, _⟩ => rfl | ⟨3, _⟩ => rfl))

/-- The dimension numbers of take_along_axis's gather: batch axes 0 and 1, the vocabulary axis collapsed. -/
abbrev gd : GatherDims S8x1024x32000 S8x1024x1x1 S8x1024x1 :=
  gather_S8x1024x32000_S8x1024x1x1_S8x1024x1_n_2_01_01_2_3_111

theorem gd_batch0 : (0 : Fin S8x1024x32000.rank) ∈ gd.operandBatchingDims := by decide
theorem gd_batch1 : (1 : Fin S8x1024x32000.rank) ∈ gd.operandBatchingDims := by decide
theorem gd_not_batch2 : (2 : Fin S8x1024x32000.rank) ∉ gd.operandBatchingDims := by decide
theorem gd_collapsed2 : (2 : Fin S8x1024x32000.rank) ∈ gd.collapsedSliceDims := by decide
theorem gd_start2 : (2 : Fin S8x1024x32000.rank) ∈ gd.startIndexMap := by decide

/-- The gather of take_along_axis, at (b, q, 0): the operand at (b, q, the start index read signed and clamped). -/
theorem gather_apply {α : Type} (x : S8x1024x32000.Idx → α) (idx : IVec S8x1024x1x1 32) (b : Fin 8) (q : Fin 1024) :
    Host.gather gd x idx (ix3 b q (0 : Fin 1))
      = x (ix3 b q ⟨min (idx (ix4 b q (0 : Fin 1) (0 : Fin 1))).toInt.toNat 31999, by omega⟩) := by
  unfold Host.gather
  refine congrArg x (funext fun a => Fin.ext ?_)
  show gd.start (ix3 b q (0 : Fin 1)) idx a + gd.batchCoord (ix3 b q (0 : Fin 1)) a
    + gd.offCoord (ix3 b q (0 : Fin 1)) a = _
  match a with
  | ⟨0, h0⟩ =>
    have hb : (⟨0, h0⟩ : Fin S8x1024x32000.rank) ∈ gd.operandBatchingDims := gd_batch0
    rw [GatherDims.start_batching _ _ _ _ hb,
      GatherDims.offCoord_eq_zero _ _ _ (fun h => ((GatherDims.mem_sKept _ _).1 h).2 hb)]
    unfold GatherDims.batchCoord
    rw [dif_pos hb, Nat.zero_add, Nat.add_zero]
    rfl
  | ⟨1, h1⟩ =>
    have hb : (⟨1, h1⟩ : Fin S8x1024x32000.rank) ∈ gd.operandBatchingDims := gd_batch1
    rw [GatherDims.start_batching _ _ _ _ hb,
      GatherDims.offCoord_eq_zero _ _ _ (fun h => ((GatherDims.mem_sKept _ _).1 h).2 hb)]
    unfold GatherDims.batchCoord
    rw [dif_pos hb, Nat.zero_add, Nat.add_zero]
    rfl
  | ⟨2, h2⟩ =>
    have hb : (⟨2, h2⟩ : Fin S8x1024x32000.rank) ∉ gd.operandBatchingDims := gd_not_batch2
    have hc : (⟨2, h2⟩ : Fin S8x1024x32000.rank) ∈ gd.collapsedSliceDims := gd_collapsed2
    have hm : (⟨2, h2⟩ : Fin S8x1024x32000.rank) ∈ gd.startIndexMap := gd_start2
    rw [GatherDims.batchCoord_eq_zero _ _ _ hb,
      GatherDims.offCoord_eq_zero _ _ _ (fun h => ((GatherDims.mem_sKept _ _).1 h).1 hc)]
    unfold GatherDims.start
    rw [dif_pos hm, Nat.add_zero]
    have hsi : gd.siIdx (ix3 b q (0 : Fin 1)) ⟨List.idxOf (⟨2, h2⟩ : Fin S8x1024x32000.rank) gd.startIndexMap,
        List.idxOf_lt_length_iff.2 hm⟩ = ix4 b q (0 : Fin 1) (0 : Fin 1) := by
      funext c; refine Fin.ext ?_
      match c with
      | ⟨0, _⟩ => rfl
      | ⟨1, _⟩ => rfl
      | ⟨2, _⟩ => rfl
      | ⟨3, _⟩ => rfl
    rw [hsi]
    rfl

/-! ### The reference's composed index maps at a token's coordinates -/

theorem idx_v6 (b : Fin 8) (q : Fin 1024) : idx_main_v6 (ix2 b q) = ix3 b q (0 : Fin 1) :=
  funext fun a => Fin.ext (by
    have hb := b.isLt
    have hq := q.isLt
    match a with
    | ⟨0, _⟩ => show (b.val * 1024 + q.val) / 1024 = b.val; omega
    | ⟨1, _⟩ => show (b.val * 1024 + q.val) / 1 % 1024 = q.val; omega
    | ⟨2, _⟩ => rfl)

theorem idx_call2_v5 (b : Fin 8) (q : Fin 1024) :
    idx_main_call2_v5 (ix4 b q (0 : Fin 1) (0 : Fin 1)) = ix3 b q (0 : Fin 1) :=
  funext fun a => Fin.ext (by
    have hb := b.isLt
    have hq := q.isLt
    match a with
    | ⟨0, _⟩ => show (((b.val * 1024 + q.val) * 1 + 0) * 1 + 0) / 1024 = b.val; omega
    | ⟨1, _⟩ => show (((b.val * 1024 + q.val) * 1 + 0) * 1 + 0) / 1 % 1024 = q.val; omega
    | ⟨2, _⟩ => rfl)

theorem idx_v4 (b : Fin 8) (q : Fin 1024) : idx_main_v4 (ix3 b q (0 : Fin 1)) = ix2 b q :=
  funext fun a => Fin.ext (by match a with | ⟨0, _⟩ => rfl | ⟨1, _⟩ => rfl)

theorem idx_v9_v11 (b : Fin 8) (q : Fin 1024) (s : Fin 512) : idx_main_v9 (idx_main_v11 (ix3 b q s)) = ix2 b q :=
  funext fun a => Fin.ext (by match a with | ⟨0, _⟩ => rfl | ⟨1, _⟩ => rfl)

theorem idx_v10_v12 (b : Fin 8) (q : Fin 1024) (s : Fin 512) : idx_main_v10 (idx_main_v12 (ix3 b q s)) = ix2 b s :=
  funext fun a => Fin.ext (by match a with | ⟨0, _⟩ => rfl | ⟨1, _⟩ => rfl)

theorem idx_call0_v3_v4 (b : Fin 8) (q : Fin 1024) (u : Fin 32000) :
    idx_main_call0_v3 (idx_main_call0_v4 (ix3 b q u)) = ix2 b q :=
  funext fun a => Fin.ext (by match a with | ⟨0, _⟩ => rfl | ⟨1, _⟩ => rfl)

theorem idx_call0_v7_v8_v10 (b : Fin 8) (q : Fin 1024) (u k : Fin 32000) :
    idx_main_call0_v7 (idx_main_call0_v8 (idx_main_call0_v10 (ix3 b q u))) k = ix3 b q k :=
  funext fun a => Fin.ext (by match a with | ⟨0, _⟩ => rfl | ⟨1, _⟩ => rfl | ⟨2, _⟩ => rfl)

/-! ### The weight -/

/-- The reference's weight at token (b, q) is the specification's: 1 when the label is one of the batch row's
    source ids or the padding id, else 2. -/
theorem weight_apply (x1 : (⟨S8x1024, .i32⟩ : BufTy).Contents (Elt Ideal))
    (x2 : (⟨S8x512, .i32⟩ : BufTy).Contents (Elt Ideal)) (b : Fin 8) (q : Fin 1024) :
    val_main_v19 (F := Ideal) x1 x2 (ix2 b q) = weight (x1 (ix2 b q)) (fun s => x2 (ix2 b s)) := by
  have hbit : ∀ s : Fin 512,
      val_main_v13 (F := Ideal) x1 x2 (ix3 b q s) = IntOp.cmpi .eq (x1 (ix2 b q)) (x2 (ix2 b s)) := by
    intro s
    rw [val_main_v13_apply, val_main_v11_apply, val_main_v9_apply, val_main_v12_apply, val_main_v10_apply,
      idx_v9_v11, idx_v10_v12]
  have hor : val_main_v17 (F := Ideal) x1 x2 (ix2 b q) = 1#1
      ↔ ((∃ s, x2 (ix2 b s) = x1 (ix2 b q)) ∨ x1 (ix2 b q) = 0#32) := by
    rw [val_main_v17_apply, val_main_v16_apply, val_main_v15_apply, val_main_c_2_apply, ori_eq_one_iff, cmpi_eq_iff]
    unfold val_main_v14
    rw [reduce_ori_apply, val_main_c_1_apply, fold_ori_eq_one_iff]
    simp only [hbit, Finset.mem_univ, true_and, cmpi_eq_iff]
    exact or_congr (exists_congr fun s => eq_comm) Iff.rfl
  rw [val_main_v19_apply, val_main_v18_apply, val_main_call4_v0_apply, val_main_cst_3_apply, val_main_call4_v1_apply,
    val_main_cst_4_apply]
  unfold weight
  by_cases h : (∃ s, x2 (ix2 b s) = x1 (ix2 b q)) ∨ x1 (ix2 b q) = 0#32
  · rw [hor.mpr h, select_one, if_pos h]
    all_goals rfl
  · rw [eq_zero_of_ne_one (fun e => h (hor.mp e)), select_zero, if_neg h]
    all_goals rfl

/-! ### The log-softmax of the token's row -/

/-- The shift the reference subtracts at token (b, q) is the row's maximum (joined with −∞). -/
theorem rowMax_apply (x0 : (⟨S8x1024x32000, .f32⟩ : BufTy).Contents (Elt Ideal)) (b : Fin 8) (q : Fin 1024) :
    val_main_call0_v2 (F := Ideal) x0 (ix2 b q)
      = (Finset.univ : Finset (Fin 32000)).fold max (⊥ : EReal) (fun u => x0 (ix3 b q u)) := by
  have hbot : FloatOps.ofBits (F := Ideal) .f32 0xFF800000#32 = (⊥ : EReal) := by
    show Ideal.ofBits .f32 0xFF800000#32 = ⊥
    simp [Ideal.ofBits, Ideal.ieee]
  rw [val_main_call0_v2_apply, val_main_call0_v1_apply, val_main_call0_cst_0_apply]
  unfold val_main_call0_v0
  rw [reduce_max_apply, val_main_call0_cst_apply, hbot]
  exact max_bot_left _

/-- On finite logits that shift is a real. -/
theorem rowMax_real (x0 : (⟨S8x1024x32000, .f32⟩ : BufTy).Contents (Elt Ideal))
    (hfin : ∀ i, ∃ r : ℝ, x0 i = (r : EReal)) (b : Fin 8) (q : Fin 1024) :
    ∃ M : ℝ, val_main_call0_v2 (F := Ideal) x0 (ix2 b q) = (M : EReal) := by
  obtain ⟨M, hM⟩ := fold_max_real (by norm_num : 0 < 32000) (fun u => (x0 (ix3 b q u)).toReal)
  refine ⟨M, (rowMax_apply x0 b q).trans (Eq.trans ?_ hM)⟩
  refine Finset.fold_congr (fun u _ => ?_)
  obtain ⟨r, hr⟩ := hfin (ix3 b q u)
  show x0 (ix3 b q u) = (((x0 (ix3 b q u)).toReal : ℝ) : EReal)
  rw [hr, EReal.toReal_coe]

/-- The shift broadcast along the vocabulary axis, read at (b, q, u). -/
theorem shift_apply (x0 : (⟨S8x1024x32000, .f32⟩ : BufTy).Contents (Elt Ideal)) (b : Fin 8) (q : Fin 1024)
    (u : Fin 32000) :
    val_main_call0_v4 (F := Ideal) x0 (ix3 b q u) = val_main_call0_v2 (F := Ideal) x0 (ix2 b q) := by
  rw [val_main_call0_v4_apply, val_main_call0_v3_apply, idx_call0_v3_v4]

/-- The reference's log-softmax at (b, q, u): the shifted logit minus the log of the sum of the shifted exponentials. -/
theorem logSoftmax_apply (x0 : (⟨S8x1024x32000, .f32⟩ : BufTy).Contents (Elt Ideal)) (b : Fin 8) (q : Fin 1024)
    (u : Fin 32000) :
    val_main_v0 (F := Ideal) x0 (ix3 b q u)
      = (x0 (ix3 b q u) - val_main_call0_v2 (F := Ideal) x0 (ix2 b q))
        - Ideal.log (0 + ∑ k : Fin 32000,
            Ideal.exp (x0 (ix3 b q k) - val_main_call0_v2 (F := Ideal) x0 (ix2 b q))) := by
  have hterm : ∀ k : Fin 32000,
      val_main_call0_v6 (F := Ideal) x0 (idx_main_call0_v7 (idx_main_call0_v8 (idx_main_call0_v10 (ix3 b q u))) k)
        = Ideal.exp (x0 (ix3 b q k) - val_main_call0_v2 (F := Ideal) x0 (ix2 b q)) := by
    intro k
    rw [idx_call0_v7_v8_v10, val_main_call0_v6_apply, val_main_call0_v5_apply, shift_apply]
    all_goals rfl
  rw [val_main_v0_apply, val_main_call0_v5_apply, shift_apply, val_main_call0_v10_apply, val_main_call0_v9_apply,
    val_main_call0_v8_apply, val_main_call0_v7_apply, val_main_call0_cst_1_apply]
  simp only [hterm, Ideal.subf_def, Ideal.hostUnary_log_def, Ideal.ofBits_def, Ideal.ofBits_zero_f32]

/-! ### A class label goes through take_along_axis untouched -/

section Label

variable (x0 : (⟨S8x1024x32000, .f32⟩ : BufTy).Contents (Elt Ideal)) (x1 : (⟨S8x1024, .i32⟩ : BufTy).Contents (Elt Ideal))
  (b : Fin 8) (q : Fin 1024) (hne : x1 (ix2 b q) ≠ ignoreWord) (ht : (x1 (ix2 b q)).toNat < 32000)

include hne in
/-- A label that is not the ignore marker is its own safe label. -/
theorem v3_apply_of_ne : val_main_v3 (F := Ideal) x1 (ix2 b q) = x1 (ix2 b q) := by
  rw [val_main_v3_apply, val_main_v2_apply, val_main_v1_apply, val_main_c_apply,
    eq_zero_of_ne_one (fun e => hne (cmpi_eq_iff.mp e)), select_zero]

include hne ht in
/-- A class below 2³¹ is not negative: the index fix-up leaves it. -/
theorem call2_v4_apply_of : val_main_call2_v4 (F := Ideal) x1 (ix3 b q (0 : Fin 1)) = x1 (ix2 b q) := by
  have h4 : val_main_v4 (F := Ideal) x1 (ix3 b q (0 : Fin 1)) = x1 (ix2 b q) := by
    rw [val_main_v4_apply, idx_v4, v3_apply_of_ne x1 b q hne]
  have hnlt : ¬ IntOp.cmpi .slt (x1 (ix2 b q)) 0#32 = 1#1 := fun e =>
    Nat.not_lt_zero _ ((slt_iff_toNat (lt_trans ht (by norm_num)) (by decide)).mp e)
  rw [val_main_call2_v4_apply, val_main_call2_v1_apply, h4, val_main_call2_v0_apply, val_main_call2_c_apply,
    eq_zero_of_ne_one hnlt, select_zero]

include hne ht in
/-- The start index the gather reads at (b, q, 0, 0) is the label. -/
theorem call2_v5_apply_of :
    val_main_call2_v5 (F := Ideal) x1 (ix4 b q (0 : Fin 1) (0 : Fin 1)) = x1 (ix2 b q) := by
  rw [val_main_call2_v5_apply, idx_call2_v5, call2_v4_apply_of x1 b q hne ht]

include hne ht in
/-- The range test 0 ≤ t ≤ 31999 passes. -/
theorem call2_v12_apply_of : val_main_call2_v12 (F := Ideal) x1 (ix3 b q (0 : Fin 1)) = 1#1 := by
  have hlt : (x1 (ix2 b q)).toNat < 2 ^ 31 := lt_trans ht (by norm_num)
  have h31999 : (31999#32 : BitVec 32).toNat = 31999 := by decide
  have hge : IntOp.cmpi .sge (x1 (ix2 b q)) 0#32 = 1#1 := (sge_iff_toNat hlt (by decide)).mpr (Nat.zero_le _)
  have hle : IntOp.cmpi .sle (x1 (ix2 b q)) 31999#32 = 1#1 :=
    (sle_iff_toNat hlt (by decide)).mpr (by rw [h31999]; omega)
  unfold val_main_call2_v12
  rw [reduce_andi_unit, val_main_call2_c_3_apply, val_main_call2_v11_apply, val_main_call2_v7_apply,
    val_main_call2_v10_apply, call2_v5_apply_of x1 b q hne ht, val_main_call2_v6_apply, val_main_call2_c_2_apply,
    val_main_call2_v9_apply, val_main_call2_v8_apply, val_main_call2_c_1_apply, hge, hle]
  decide

include hne ht in
/-- The gather reads the log-softmax at (b, q, t). -/
theorem call2_v13_apply_of :
    val_main_call2_v13 (F := Ideal) x0 x1 (ix3 b q (0 : Fin 1))
      = val_main_v0 (F := Ideal) x0 (ix3 b q ⟨(x1 (ix2 b q)).toNat, ht⟩) := by
  unfold val_main_call2_v13
  refine (gather_apply (val_main_v0 (F := Ideal) x0) (val_main_call2_v5 (F := Ideal) x1) b q).trans ?_
  refine congrArg (fun k => val_main_v0 (F := Ideal) x0 (ix3 b q k)) (Fin.ext ?_)
  show min (val_main_call2_v5 (F := Ideal) x1 (ix4 b q (0 : Fin 1) (0 : Fin 1))).toInt.toNat 31999
    = (x1 (ix2 b q)).toNat
  have h2 : 2 * (x1 (ix2 b q)).toNat < 2 ^ 32 := by omega
  rw [call2_v5_apply_of x1 b q hne ht, BitVec.toInt_eq_toNat_of_lt h2, Int.toNat_natCast]
  omega

include hne ht in
/-- take_along_axis at (b, q, 0): the log-softmax at the label's class, not the fill value. -/
theorem v5_apply_of :
    val_main_v5 (F := Ideal) x0 x1 (ix3 b q (0 : Fin 1))
      = val_main_v0 (F := Ideal) x0 (ix3 b q ⟨(x1 (ix2 b q)).toNat, ht⟩) := by
  rw [val_main_v5_apply, call2_v12_apply_of x1 b q hne ht, select_one, call2_v13_apply_of x0 x1 b q hne ht]

end Label

/-! ### The per-token value -/

/-- For a class label on finite logits the reference's first factor is the negative log-likelihood. -/
theorem v8_apply_of_ne (x0 : (⟨S8x1024x32000, .f32⟩ : BufTy).Contents (Elt Ideal))
    (x1 : (⟨S8x1024, .i32⟩ : BufTy).Contents (Elt Ideal)) (hfin : ∀ i, ∃ r : ℝ, x0 i = (r : EReal))
    (b : Fin 8) (q : Fin 1024) (hne : x1 (ix2 b q) ≠ ignoreWord) (ht : (x1 (ix2 b q)).toNat < 32000) :
    val_main_v8 (F := Ideal) x0 x1 (ix2 b q)
      = ((nll (fun u => (x0 (ix3 b q u)).toReal) (tgtIdx (x1 (ix2 b q))) : ℝ) : EReal) := by
  obtain ⟨M, hM⟩ := rowMax_real x0 hfin b q
  have hrow : ∀ u : Fin 32000, (((x0 (ix3 b q u)).toReal : ℝ) : EReal) = x0 (ix3 b q u) := fun u => by
    obtain ⟨r, hr⟩ := hfin (ix3 b q u)
    rw [hr, EReal.toReal_coe]
  have htgt : tgtIdx (x1 (ix2 b q)) = ⟨(x1 (ix2 b q)).toNat, ht⟩ := Fin.ext (Nat.mod_eq_of_lt ht)
  have hmath := shifted_nll (fun u => (x0 (ix3 b q u)).toReal) ⟨(x1 (ix2 b q)).toNat, ht⟩ M
  simp only [hrow] at hmath
  rw [val_main_v8_apply, val_main_v2_apply, val_main_v1_apply, val_main_c_apply,
    eq_zero_of_ne_one (fun e => hne (cmpi_eq_iff.mp e)), select_zero, val_main_v7_apply, val_main_v6_apply, idx_v6,
    v5_apply_of x0 x1 b q hne ht, logSoftmax_apply, hM, htgt, Ideal.hostNegf_def, Ideal.negf_def]
  exact hmath

/-- The reference's per-token value (the product before the final mean), read at token (b, q), is the token's
    weighted loss. -/
theorem ref_row (x0 : (⟨S8x1024x32000, .f32⟩ : BufTy).Contents (Elt Ideal))
    (x1 : (⟨S8x1024, .i32⟩ : BufTy).Contents (Elt Ideal)) (x2 : (⟨S8x512, .i32⟩ : BufTy).Contents (Elt Ideal))
    (hfin : ∀ i, ∃ r : ℝ, x0 i = (r : EReal)) (hlab : ∀ i, LabelOk (x1 i)) (b : Fin 8) (q : Fin 1024) :
    val_main_v20 (F := Ideal) x0 x1 x2 (ix2 b q)
      = tokenLoss (fun u => x0 (ix3 b q u)) (x1 (ix2 b q)) (fun s => x2 (ix2 b s)) := by
  rw [val_main_v20_apply, weight_apply]
  unfold tokenLoss
  by_cases hig : x1 (ix2 b q) = ignoreWord
  · have hig' : x1 (ix2 b q) = 4294967196#32 := hig
    rw [if_pos hig, val_main_v8_apply, val_main_v2_apply, val_main_v1_apply, val_main_c_apply, cmpi_eq_iff.mpr hig',
      select_one, val_main_call3_v1_apply, val_main_call3_v0_apply, val_main_cst_apply]
    show Ideal.ofBits .f32 0x00000000#32 * _ = _
    rw [Ideal.ofBits_zero_f32]
  · have ht : (x1 (ix2 b q)).toNat < 32000 := Or.resolve_left (hlab (ix2 b q)) hig
    rw [if_neg hig, v8_apply_of_ne x0 x1 hfin b q hig ht]
    all_goals rfl

end Cert.ReferenceIdeal.RefRow

end
-- ==== Proof.RefRunStages.lean ====
/- The reference program's run, read stage by stage. The 73 host operations of @main are cut into six consecutive
   stretches at the call boundaries; each stretch is evaluated over ANY contents of the buffers it reads from earlier
   stretches (given by hypotheses naming the earlier stages), and concludes its own live-out stage by name. The whole
   run is the chain of the six, so the composed term of the arguments is never built: the label chain, read many times
   over, stays behind its stage names. -/
import proofs.«412151_j47029891891462_3_alg».proof.Proof.RefRead
import Idealize.ShloMosaic.Lib.StableHlo.Run

noncomputable section

namespace Cert.ReferenceIdeal.RefRun

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

abbrev opsA : List (HloOp τ sig (Elt F)) :=
  [ TRef.nullary (TRef.of (T := ⟨S_, .f32⟩) main_call0_cst) (constant S_ .f32 0xFF800000#32),
    TRef.binary (TRef.of (T := ⟨S8x1024x32000, .f32⟩) main_arg0) (TRef.of (T := ⟨S_, .f32⟩) main_call0_cst) (TRef.of (T := ⟨S8x1024, .f32⟩) main_call0_v0) (fun x v => Host.reduce FloatOps.maximumf x v reducesTo_S8x1024x32000_S8x1024_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S8x1024, .f32⟩) main_call0_v1) (broadcastInDim S8x1024 ![] bcast_S_S8x1024),
    TRef.binary (TRef.of (T := ⟨S8x1024, .f32⟩) main_call0_v1) (TRef.of (T := ⟨S8x1024, .f32⟩) main_call0_v0) (TRef.of (T := ⟨S8x1024, .f32⟩) main_call0_v2) maximumf,
    TRef.unary (TRef.of (T := ⟨S8x1024, .f32⟩) main_call0_v2) (TRef.of (T := ⟨S8x1024x1, .f32⟩) main_call0_v3) (broadcastInDim S8x1024x1 ![0, 1] bcast_S8x1024_S8x1024x1_0_1),
    TRef.unary (TRef.of (T := ⟨S8x1024x1, .f32⟩) main_call0_v3) (TRef.of (T := ⟨S8x1024x32000, .f32⟩) main_call0_v4) (broadcastInDim S8x1024x32000 ![0, 1, 2] bcast_S8x1024x1_S8x1024x32000_0_1_2),
    TRef.binary (TRef.of (T := ⟨S8x1024x32000, .f32⟩) main_arg0) (TRef.of (T := ⟨S8x1024x32000, .f32⟩) main_call0_v4) (TRef.of (T := ⟨S8x1024x32000, .f32⟩) main_call0_v5) subf,
    TRef.unary (TRef.of (T := ⟨S8x1024x32000, .f32⟩) main_call0_v5) (TRef.of (T := ⟨S8x1024x32000, .f32⟩) main_call0_v6) Host.exp,
    TRef.nullary (TRef.of (T := ⟨S_, .f32⟩) main_call0_cst_1) (constant S_ .f32 0x00000000#32),
    TRef.binary (TRef.of (T := ⟨S8x1024x32000, .f32⟩) main_call0_v6) (TRef.of (T := ⟨S_, .f32⟩) main_call0_cst_1) (TRef.of (T := ⟨S8x1024, .f32⟩) main_call0_v7) (fun x v => Host.reduceAdd x v reducesTo_S8x1024x32000_S8x1024_d2 h_S_),
    TRef.unary (TRef.of (T := ⟨S8x1024, .f32⟩) main_call0_v7) (TRef.of (T := ⟨S8x1024x1, .f32⟩) main_call0_v8) (broadcastInDim S8x1024x1 ![0, 1] bcast_S8x1024_S8x1024x1_0_1),
    TRef.unary (TRef.of (T := ⟨S8x1024x1, .f32⟩) main_call0_v8) (TRef.of (T := ⟨S8x1024x1, .f32⟩) main_call0_v9) Host.log,
    TRef.unary (TRef.of (T := ⟨S8x1024x1, .f32⟩) main_call0_v9) (TRef.of (T := ⟨S8x1024x32000, .f32⟩) main_call0_v10) (broadcastInDim S8x1024x32000 ![0, 1, 2] bcast_S8x1024x1_S8x1024x32000_0_1_2),
    TRef.binary (TRef.of (T := ⟨S8x1024x32000, .f32⟩) main_call0_v5) (TRef.of (T := ⟨S8x1024x32000, .f32⟩) main_call0_v10) (TRef.of (T := ⟨S8x1024x32000, .f32⟩) main_v0) subf ]

abbrev opsB : List (HloOp τ sig (Elt F)) :=
  [ nullary main_c (constantI S_ 32 4294967196#32),
    unary main_c main_v1 (broadcastInDim S8x1024 ![] bcast_S_S8x1024 : (⟨S_, .i32⟩ : BufTy).Contents (Elt F) → (⟨S8x1024, .i32⟩ : BufTy).Contents (Elt F)),
    binary main_arg1 main_v1 main_v2 (cmpi .eq : (⟨S8x1024, .i32⟩ : BufTy).Contents (Elt F) → (⟨S8x1024, .i32⟩ : BufTy).Contents (Elt F) → (⟨S8x1024, .i1⟩ : BufTy).Contents (Elt F)),
    nullary main_c_0 (constantI S_ 32 0#32),
    TRef.unary (TRef.of (T := ⟨S_, .i32⟩) main_c_0) (TRef.of (T := ⟨S_, .i32⟩) main_call1_v0) id,
    TRef.unary (TRef.of (T := ⟨S_, .i32⟩) main_call1_v0) (TRef.of (T := ⟨S8x1024, .i32⟩) main_call1_v1) (broadcastInDim S8x1024 ![] bcast_S_S8x1024),
    TRef.ternary (TRef.of (T := ⟨S8x1024, .i1⟩) main_v2) (TRef.of (T := ⟨S8x1024, .i32⟩) main_call1_v1) (TRef.of (T := ⟨S8x1024, .i32⟩) main_arg1) (TRef.of (T := ⟨S8x1024, .i32⟩) main_v3) select,
    unary main_v3 main_v4 (broadcastInDim S8x1024x1 ![0, 1] bcast_S8x1024_S8x1024x1_0_1 : (⟨S8x1024, .i32⟩ : BufTy).Contents (Elt F) → (⟨S8x1024x1, .i32⟩ : BufTy).Contents (Elt F)) ]

abbrev opsC : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S8x1024x1, .i32⟩) main_call2_v0) (broadcastInDim S8x1024x1 ![] bcast_S_S8x1024x1),
    TRef.binary (TRef.of (T := ⟨S8x1024x1, .i32⟩) main_v4) (TRef.of (T := ⟨S8x1024x1, .i32⟩) main_call2_v0) (TRef.of (T := ⟨S8x1024x1, .i1⟩) main_call2_v1) (cmpi .slt),
    TRef.nullary (TRef.of (T := ⟨S_, .i32⟩) main_call2_c_0) (constantI S_ 32 32000#32),
    TRef.unary (TRef.of (T := ⟨S_, .i32⟩) main_call2_c_0) (TRef.of (T := ⟨S8x1024x1, .i32⟩) main_call2_v2) (broadcastInDim S8x1024x1 ![] bcast_S_S8x1024x1),
    TRef.binary (TRef.of (T := ⟨S8x1024x1, .i32⟩) main_v4) (TRef.of (T := ⟨S8x1024x1, .i32⟩) main_call2_v2) (TRef.of (T := ⟨S8x1024x1, .i32⟩) main_call2_v3) addi,
    TRef.ternary (TRef.of (T := ⟨S8x1024x1, .i1⟩) main_call2_v1) (TRef.of (T := ⟨S8x1024x1, .i32⟩) main_call2_v3) (TRef.of (T := ⟨S8x1024x1, .i32⟩) main_v4) (TRef.of (T := ⟨S8x1024x1, .i32⟩) main_call2_v4) select,
    TRef.reshape (TRef.of (T := ⟨S8x1024x1, .i32⟩) main_call2_v4) (TRef.of (T := ⟨S8x1024x1x1, .i32⟩) main_call2_v5) rfl shapeCasts_S8x1024x1_S8x1024x1x1,
    TRef.nullary (TRef.of (T := ⟨S1, .i32⟩) main_call2_c_1) (constantI S1 32 31999#32),
    TRef.nullary (TRef.of (T := ⟨S_, .i32⟩) main_call2_c_2) (constantI S_ 32 0#32),
    TRef.unary (TRef.of (T := ⟨S_, .i32⟩) main_call2_c_2) (TRef.of (T := ⟨S8x1024x1x1, .i32⟩) main_call2_v6) (broadcastInDim S8x1024x1x1 ![] bcast_S_S8x1024x1x1),
    TRef.binary (TRef.of (T := ⟨S8x1024x1x1, .i32⟩) main_call2_v5) (TRef.of (T := ⟨S8x1024x1x1, .i32⟩) main_call2_v6) (TRef.of (T := ⟨S8x1024x1x1, .i1⟩) main_call2_v7) (cmpi .sge),
    TRef.unary (TRef.of (T := ⟨S1, .i32⟩) main_call2_c_1) (TRef.of (T := ⟨S1x1x1x1, .i32⟩) main_call2_v8) (broadcastInDim S1x1x1x1 ![3] bcast_S1_S1x1x1x1_3),
    TRef.unary (TRef.of (T := ⟨S1x1x1x1, .i32⟩) main_call2_v8) (TRef.of (T := ⟨S8x1024x1x1, .i32⟩) main_call2_v9) (broadcastInDim S8x1024x1x1 ![0, 1, 2, 3] bcast_S1x1x1x1_S8x1024x1x1_0_1_2_3),
    TRef.binary (TRef.of (T := ⟨S8x1024x1x1, .i32⟩) main_call2_v5) (TRef.of (T := ⟨S8x1024x1x1, .i32⟩) main_call2_v9) (TRef.of (T := ⟨S8x1024x1x1, .i1⟩) main_call2_v10) (cmpi .sle),
    TRef.binary (TRef.of (T := ⟨S8x1024x1x1, .i1⟩) main_call2_v7) (TRef.of (T := ⟨S8x1024x1x1, .i1⟩) main_call2_v10) (TRef.of (T := ⟨S8x1024x1x1, .i1⟩) main_call2_v11) andi,
    TRef.nullary (TRef.of (T := ⟨S_, .i1⟩) main_call2_c_3) (constantI S_ 1 1#1),
    TRef.binary (TRef.of (T := ⟨S8x1024x1x1, .i1⟩) main_call2_v11) (TRef.of (T := ⟨S_, .i1⟩) main_call2_c_3) (TRef.of (T := ⟨S8x1024x1, .i1⟩) main_call2_v12) (fun x v => Host.reduce IntOp.andi x v reducesTo_S8x1024x1x1_S8x1024x1_d3 h_S_),
    TRef.binary (TRef.of (T := ⟨S8x1024x32000, .f32⟩) main_v0) (TRef.of (T := ⟨S8x1024x1x1, .i32⟩) main_call2_v5) (TRef.of (T := ⟨S8x1024x1, .f32⟩) main_call2_v13) (fun x i => Host.gather gather_S8x1024x32000_S8x1024x1x1_S8x1024x1_n_2_01_01_2_3_111 x i),
    TRef.nullary (TRef.of (T := ⟨S_, .f32⟩) main_call2_cst) (constant S_ .f32 0x7FC00000#32),
    TRef.unary (TRef.of (T := ⟨S_, .f32⟩) main_call2_cst) (TRef.of (T := ⟨S8x1024x1, .f32⟩) main_call2_v14) (broadcastInDim S8x1024x1 ![] bcast_S_S8x1024x1),
    TRef.ternary (TRef.of (T := ⟨S8x1024x1, .i1⟩) main_call2_v12) (TRef.of (T := ⟨S8x1024x1, .f32⟩) main_call2_v13) (TRef.of (T := ⟨S8x1024x1, .f32⟩) main_call2_v14) (TRef.of (T := ⟨S8x1024x1, .f32⟩) main_v5) select ]

abbrev opsD : List (HloOp τ sig (Elt F)) :=
  [ reshape main_v5 main_v6 rfl shapeCasts_S8x1024x1_S8x1024,
    unary main_v6 main_v7 (Host.negf : (⟨S8x1024, .f32⟩ : BufTy).Contents (Elt F) → (⟨S8x1024, .f32⟩ : BufTy).Contents (Elt F)),
    nullary main_cst (constant S_ .f32 0x00000000#32),
    TRef.unary (TRef.of (T := ⟨S_, .f32⟩) main_cst) (TRef.of (T := ⟨S_, .f32⟩) main_call3_v0) id,
    TRef.unary (TRef.of (T := ⟨S_, .f32⟩) main_call3_v0) (TRef.of (T := ⟨S8x1024, .f32⟩) main_call3_v1) (broadcastInDim S8x1024 ![] bcast_S_S8x1024),
    TRef.ternary (TRef.of (T := ⟨S8x1024, .i1⟩) main_v2) (TRef.of (T := ⟨S8x1024, .f32⟩) main_call3_v1) (TRef.of (T := ⟨S8x1024, .f32⟩) main_v7) (TRef.of (T := ⟨S8x1024, .f32⟩) main_v8) select ]

abbrev opsE : List (HloOp τ sig (Elt F)) :=
  [ unary main_arg1 main_v9 (broadcastInDim S8x1024x1 ![0, 1] bcast_S8x1024_S8x1024x1_0_1 : (⟨S8x1024, .i32⟩ : BufTy).Contents (Elt F) → (⟨S8x1024x1, .i32⟩ : BufTy).Contents (Elt F)),
    unary main_arg2 main_v10 (broadcastInDim S8x1x512 ![0, 2] bcast_S8x512_S8x1x512_0_2 : (⟨S8x512, .i32⟩ : BufTy).Contents (Elt F) → (⟨S8x1x512, .i32⟩ : BufTy).Contents (Elt F)),
    unary main_v9 main_v11 (broadcastInDim S8x1024x512 ![0, 1, 2] bcast_S8x1024x1_S8x1024x512_0_1_2 : (⟨S8x1024x1, .i32⟩ : BufTy).Contents (Elt F) → (⟨S8x1024x512, .i32⟩ : BufTy).Contents (Elt F)),
    unary main_v10 main_v12 (broadcastInDim S8x1024x512 ![0, 1, 2] bcast_S8x1x512_S8x1024x512_0_1_2 : (⟨S8x1x512, .i32⟩ : BufTy).Contents (Elt F) → (⟨S8x1024x512, .i32⟩ : BufTy).Contents (Elt F)),
    binary main_v11 main_v12 main_v13 (cmpi .eq : (⟨S8x1024x512, .i32⟩ : BufTy).Contents (Elt F) → (⟨S8x1024x512, .i32⟩ : BufTy).Contents (Elt F) → (⟨S8x1024x512, .i1⟩ : BufTy).Contents (Elt F)),
    nullary main_c_1 (constantI S_ 1 0#1),
    binary main_v13 main_c_1 main_v14 ((fun x v => Host.reduce IntOp.ori x v reducesTo_S8x1024x512_S8x1024_d2 h_S_) : (⟨S8x1024x512, .i1⟩ : BufTy).Contents (Elt F) → (⟨S_, .i1⟩ : BufTy).Contents (Elt F) → (⟨S8x1024, .i1⟩ : BufTy).Contents (Elt F)),
    nullary main_c_2 (constantI S_ 32 0#32),
    unary main_c_2 main_v15 (broadcastInDim S8x1024 ![] bcast_S_S8x1024 : (⟨S_, .i32⟩ : BufTy).Contents (Elt F) → (⟨S8x1024, .i32⟩ : BufTy).Contents (Elt F)),
    binary main_arg1 main_v15 main_v16 (cmpi .eq : (⟨S8x1024, .i32⟩ : BufTy).Contents (Elt F) → (⟨S8x1024, .i32⟩ : BufTy).Contents (Elt F) → (⟨S8x1024, .i1⟩ : BufTy).Contents (Elt F)),
    binary main_v14 main_v16 main_v17 (ori : (⟨S8x1024, .i1⟩ : BufTy).Contents (Elt F) → (⟨S8x1024, .i1⟩ : BufTy).Contents (Elt F) → (⟨S8x1024, .i1⟩ : BufTy).Contents (Elt F)) ]

abbrev opsF : List (HloOp τ sig (Elt F)) :=
  [ nullary main_cst_3 (constant S_ .f32 0x3F800000#32),
    nullary main_cst_4 (constant S_ .f32 0x40000000#32),
    TRef.unary (TRef.of (T := ⟨S_, .f32⟩) main_cst_3) (TRef.of (T := ⟨S8x1024, .f32⟩) main_call4_v0) (broadcastInDim S8x1024 ![] bcast_S_S8x1024),
    TRef.unary (TRef.of (T := ⟨S_, .f32⟩) main_cst_4) (TRef.of (T := ⟨S8x1024, .f32⟩) main_call4_v1) (broadcastInDim S8x1024 ![] bcast_S_S8x1024),
    TRef.ternary (TRef.of (T := ⟨S8x1024, .i1⟩) main_v17) (TRef.of (T := ⟨S8x1024, .f32⟩) main_call4_v0) (TRef.of (T := ⟨S8x1024, .f32⟩) main_call4_v1) (TRef.of (T := ⟨S8x1024, .f32⟩) main_v18) select,
    unary main_v18 main_v19 (id : (⟨S8x1024, .f32⟩ : BufTy).Contents (Elt F) → (⟨S8x1024, .f32⟩ : BufTy).Contents (Elt F)),
    binary main_v8 main_v19 main_v20 (mulf : (⟨S8x1024, .f32⟩ : BufTy).Contents (Elt F) → (⟨S8x1024, .f32⟩ : BufTy).Contents (Elt F) → (⟨S8x1024, .f32⟩ : BufTy).Contents (Elt F)),
    nullary main_cst_5 (constant S_ .f32 0x00000000#32),
    binary main_v20 main_cst_5 main_v21 ((fun x v => Host.reduceAdd x v reducesTo_S8x1024_S_d0_1 h_S_) : (⟨S8x1024, .f32⟩ : BufTy).Contents (Elt F) → (⟨S_, .f32⟩ : BufTy).Contents (Elt F) → (⟨S_, .f32⟩ : BufTy).Contents (Elt F)),
    nullary main_cst_6 (constant S_ .f32 0x46000000#32),
    binary main_v21 main_cst_6 main_v22 (Host.divf : (⟨S_, .f32⟩ : BufTy).Contents (Elt F) → (⟨S_, .f32⟩ : BufTy).Contents (Elt F) → (⟨S_, .f32⟩ : BufTy).Contents (Elt F)) ]

set_option maxRecDepth 8192 in
theorem ops_cut : (ops : List (HloOp τ sig (Elt F))) = opsA ++ (opsB ++ (opsC ++ (opsD ++ (opsE ++ opsF)))) := rfl

/-- Contents moved to a typed reference's buffer type and back are themselves. -/
theorem ofBuf_toBuf {Val : EltTy → Type} {T : BufTy} (x : TRef sig T) (v : T.Contents Val) : x.ofBuf (x.toBuf v) = v := by
  obtain ⟨r, h, hd, hu⟩ := x
  subst h
  rfl

/-! ## The six stretches, each over any contents of the buffers it reads -/

/-- The log-softmax: from the logits to the log-probabilities. -/
theorem A_v0 (W : Valuation τ sig (Elt F)) (x0 : (⟨S8x1024x32000, .f32⟩ : BufTy).Contents (Elt F))
    (h0 : W (Proc.devRef .tc main_arg0) = x0) :
    after (opsA (F := F)) W (Proc.devRef .tc main_v0) = val_main_v0 x0 := by
  have h0' : ∀ p q r, (TRef.of (sig := sig) (T := ⟨S8x1024x32000, .f32⟩) main_arg0 p q r).ofBuf (W (Proc.devRef .tc main_arg0)) = x0 :=
    fun _ _ _ => (cast_eq _ _).trans h0
  after_results_simp
  refine (cast_eq _ _).trans ?_
  simp only [h0', ofBuf_toBuf]
  unfold val_main_v0 val_main_call0_v10 val_main_call0_v9 val_main_call0_v8 val_main_call0_v7 val_main_call0_cst_1 val_main_call0_v6 val_main_call0_v5 val_main_call0_v4 val_main_call0_v3 val_main_call0_v2 val_main_call0_v1 val_main_call0_cst_0 val_main_call0_v0 val_main_call0_cst
  rfl

theorem A_keep_main_arg1 (W : Valuation τ sig (Elt F)) :
    after (opsA (F := F)) W (Proc.devRef .tc main_arg1) = W (Proc.devRef .tc main_arg1) := by
  after_results_simp

theorem A_keep_main_arg2 (W : Valuation τ sig (Elt F)) :
    after (opsA (F := F)) W (Proc.devRef .tc main_arg2) = W (Proc.devRef .tc main_arg2) := by
  after_results_simp

/-- The ignored-label test. -/
theorem B_v2 (W : Valuation τ sig (Elt F)) (x1 : (⟨S8x1024, .i32⟩ : BufTy).Contents (Elt F))
    (h1 : W (Proc.devRef .tc main_arg1) = x1) :
    after (opsB (F := F)) W (Proc.devRef .tc main_v2) = val_main_v2 x1 := by
  after_results_simp
  rw [h1]
  unfold val_main_v2 val_main_v1 val_main_c
  rfl

/-- The labels with the ignored ones sent to class 0, as a column. -/
theorem B_v4 (W : Valuation τ sig (Elt F)) (x1 : (⟨S8x1024, .i32⟩ : BufTy).Contents (Elt F))
    (h1 : W (Proc.devRef .tc main_arg1) = x1) :
    after (opsB (F := F)) W (Proc.devRef .tc main_v4) = val_main_v4 x1 := by
  after_results_simp
  simp only [TRef.ofBuf, TRef.toBuf, cast_eq]
  rw [h1]
  unfold val_main_v4 val_main_v3 val_main_v2 val_main_call1_v1 val_main_call1_v0 val_main_c_0 val_main_v1 val_main_c
  rfl

theorem B_keep_main_v0 (W : Valuation τ sig (Elt F)) :
    after (opsB (F := F)) W (Proc.devRef .tc main_v0) = W (Proc.devRef .tc main_v0) := by
  after_results_simp

theorem B_keep_main_arg1 (W : Valuation τ sig (Elt F)) :
    after (opsB (F := F)) W (Proc.devRef .tc main_arg1) = W (Proc.devRef .tc main_arg1) := by
  after_results_simp

theorem B_keep_main_arg2 (W : Valuation τ sig (Elt F)) :
    after (opsB (F := F)) W (Proc.devRef .tc main_arg2) = W (Proc.devRef .tc main_arg2) := by
  after_results_simp

/-- The log-probability at each row's label. -/
theorem C_v5 (W : Valuation τ sig (Elt F)) (x0 : (⟨S8x1024x32000, .f32⟩ : BufTy).Contents (Elt F)) (x1 : (⟨S8x1024, .i32⟩ : BufTy).Contents (Elt F))
    (hv0 : W (Proc.devRef .tc main_v0) = val_main_v0 x0) (hv4 : W (Proc.devRef .tc main_v4) = val_main_v4 x1) :
    after (opsC (F := F)) W (Proc.devRef .tc main_v5) = val_main_v5 x0 x1 := by
  after_results_simp
  simp only [TRef.ofBuf, TRef.toBuf, cast_eq]
  rw [hv0, hv4]
  unfold val_main_v5 val_main_call2_v14 val_main_call2_cst val_main_call2_v13 val_main_call2_v12 val_main_call2_c_3 val_main_call2_v11 val_main_call2_v10 val_main_call2_v9 val_main_call2_v8 val_main_call2_c_1 val_main_call2_v7 val_main_call2_v6 val_main_call2_c_2 val_main_call2_v5 val_main_call2_v4 val_main_call2_v3 val_main_call2_v2 val_main_call2_c_0 val_main_call2_v1 val_main_call2_v0 val_main_call2_c
  rfl

theorem C_keep_main_v2 (W : Valuation τ sig (Elt F)) :
    after (opsC (F := F)) W (Proc.devRef .tc main_v2) = W (Proc.devRef .tc main_v2) := by
  after_results_simp

theorem C_keep_main_arg1 (W : Valuation τ sig (Elt F)) :
    after (opsC (F := F)) W (Proc.devRef .tc main_arg1) = W (Proc.devRef .tc main_arg1) := by
  after_results_simp

theorem C_keep_main_arg2 (W : Valuation τ sig (Elt F)) :
    after (opsC (F := F)) W (Proc.devRef .tc main_arg2) = W (Proc.devRef .tc main_arg2) := by
  after_results_simp

/-- Its negation, zero where the label is ignored. -/
theorem D_v8 (W : Valuation τ sig (Elt F)) (x0 : (⟨S8x1024x32000, .f32⟩ : BufTy).Contents (Elt F)) (x1 : (⟨S8x1024, .i32⟩ : BufTy).Contents (Elt F))
    (hv5 : W (Proc.devRef .tc main_v5) = val_main_v5 x0 x1) (hv2 : W (Proc.devRef .tc main_v2) = val_main_v2 x1) :
    after (opsD (F := F)) W (Proc.devRef .tc main_v8) = val_main_v8 x0 x1 := by
  after_results_simp
  simp only [TRef.ofBuf, TRef.toBuf, cast_eq]
  rw [hv5, hv2]
  unfold val_main_v8 val_main_v7 val_main_v6 val_main_call3_v1 val_main_call3_v0 val_main_cst
  rfl

theorem D_keep_main_arg1 (W : Valuation τ sig (Elt F)) :
    after (opsD (F := F)) W (Proc.devRef .tc main_arg1) = W (Proc.devRef .tc main_arg1) := by
  after_results_simp

theorem D_keep_main_arg2 (W : Valuation τ sig (Elt F)) :
    after (opsD (F := F)) W (Proc.devRef .tc main_arg2) = W (Proc.devRef .tc main_arg2) := by
  after_results_simp

/-- Whether the label is among the row's source ids, or is class 0. -/
theorem E_v17 (W : Valuation τ sig (Elt F)) (x1 : (⟨S8x1024, .i32⟩ : BufTy).Contents (Elt F)) (x2 : (⟨S8x512, .i32⟩ : BufTy).Contents (Elt F))
    (h1 : W (Proc.devRef .tc main_arg1) = x1) (h2 : W (Proc.devRef .tc main_arg2) = x2) :
    after (opsE (F := F)) W (Proc.devRef .tc main_v17) = val_main_v17 x1 x2 := by
  after_results_simp
  rw [h1, h2]
  unfold val_main_v17 val_main_v16 val_main_v15 val_main_c_2 val_main_v14 val_main_c_1 val_main_v13 val_main_v12 val_main_v11 val_main_v10 val_main_v9
  rfl

theorem E_keep_main_v8 (W : Valuation τ sig (Elt F)) :
    after (opsE (F := F)) W (Proc.devRef .tc main_v8) = W (Proc.devRef .tc main_v8) := by
  after_results_simp

/-- The weights, the weighted sum over the rows, and its division by the number of rows. -/
theorem F_v22 (W : Valuation τ sig (Elt F)) (x0 : (⟨S8x1024x32000, .f32⟩ : BufTy).Contents (Elt F)) (x1 : (⟨S8x1024, .i32⟩ : BufTy).Contents (Elt F)) (x2 : (⟨S8x512, .i32⟩ : BufTy).Contents (Elt F))
    (hv8 : W (Proc.devRef .tc main_v8) = val_main_v8 x0 x1) (hv17 : W (Proc.devRef .tc main_v17) = val_main_v17 x1 x2) :
    after (opsF (F := F)) W (Proc.devRef .tc main_v22) = val_main_v22 x0 x1 x2 := by
  after_results_simp
  simp only [TRef.ofBuf, TRef.toBuf, cast_eq]
  rw [hv8, hv17]
  unfold val_main_v22 val_main_cst_6 val_main_v21 val_main_cst_5 val_main_v20 val_main_v19 val_main_v18 val_main_call4_v1 val_main_call4_v0 val_main_cst_4 val_main_cst_3
  rfl

/-! ## The whole line -/

/-- After all 73 operations, from any contents, the result buffer holds the last stage at the three arguments' contents. -/
theorem after_ops_v22 (V : Valuation τ sig (Elt F)) (x0 : (⟨S8x1024x32000, .f32⟩ : BufTy).Contents (Elt F)) (x1 : (⟨S8x1024, .i32⟩ : BufTy).Contents (Elt F)) (x2 : (⟨S8x512, .i32⟩ : BufTy).Contents (Elt F))
    (h0 : V (Proc.devRef .tc main_arg0) = x0) (h1 : V (Proc.devRef .tc main_arg1) = x1) (h2 : V (Proc.devRef .tc main_arg2) = x2) :
    after (ops (F := F)) V (Proc.devRef .tc main_v22) = val_main_v22 x0 x1 x2 := by
  rw [ops_cut, after_append, after_append, after_append, after_append, after_append]
  have v0A := A_v0 V x0 h0
  have a1A := (A_keep_main_arg1 V).trans h1
  have a2A := (A_keep_main_arg2 V).trans h2
  have v2B := B_v2 _ x1 a1A
  have v4B := B_v4 _ x1 a1A
  have v0B := (B_keep_main_v0 _).trans v0A
  have a1B := (B_keep_main_arg1 _).trans a1A
  have a2B := (B_keep_main_arg2 _).trans a2A
  have v5C := C_v5 _ x0 x1 v0B v4B
  have v2C := (C_keep_main_v2 _).trans v2B
  have a1C := (C_keep_main_arg1 _).trans a1B
  have a2C := (C_keep_main_arg2 _).trans a2B
  have v8D := D_v8 _ x0 x1 v5C v2C
  have a1D := (D_keep_main_arg1 _).trans a1C
  have a2D := (D_keep_main_arg2 _).trans a2C
  have v17E := E_v17 _ x1 x2 a1D a2D
  have v8E := (E_keep_main_v8 _).trans v8D
  exact F_v22 _ x0 x1 x2 v8E v17E

/-- No operation writes an argument's buffer. -/
theorem after_ops_arg0 (V : Valuation τ sig (Elt F)) : after (ops (F := F)) V (Proc.devRef .tc main_arg0) = V (Proc.devRef .tc main_arg0) := by
  after_results_simp
theorem after_ops_arg1 (V : Valuation τ sig (Elt F)) : after (ops (F := F)) V (Proc.devRef .tc main_arg1) = V (Proc.devRef .tc main_arg1) := by
  after_results_simp
theorem after_ops_arg2 (V : Valuation τ sig (Elt F)) : after (ops (F := F)) V (Proc.devRef .tc main_arg2) = V (Proc.devRef .tc main_arg2) := by
  after_results_simp

/-- Every weakly fair execution of the reference program terminates with the result buffer at the last stage of the
    arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22) = val_main_v22 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v22).trans (after_ops_v22 (launchContents m c) _ _ _ rfl rfl rfl),
      (h c main_arg0).trans (after_ops_arg0 (launchContents m c)),
      (h c main_arg1).trans (after_ops_arg1 (launchContents m c)),
      (h c main_arg2).trans (after_ops_arg2 (launchContents m c))⟩)
    (run_seq scopedRefs_eq scopedSems_eq defs main (fun _ => ops) main_eq (fun _ => ops_sub) m ρ)

end Cert.ReferenceIdeal.RefRun

end
-- ==== Proof.lean ====
/-
  Per-token weighted cross-entropy: a Pallas kernel that streams each token's 32000 logits through an online
  log-sum-exp (ten chunks of 3200, carrying running maximum, rescaled sum of exponentials and the one-hot picked target
  logit) against jax's log_softmax + take_along_axis reference; both end with the mean over the 8 × 1024 tokens.

  The claim holds for finite logits and labels that are a class in [0, 32000) or the ignore marker −100 (outside that
  range the reference indexes its log-probabilities out of range or through numpy's negative wrap, while the kernel's
  one-hot sum picks nothing). Under it both programs compute, per token, `(log ∑ᵤ exp xᵤ − x_t) · w` (zero at the ignore
  marker; w = 1 when the label is a source id or the padding id, else 2): the kernel because its rescaled sums telescope
  to `(∑ exp x) · exp (−m)` whatever the running maxima were, the reference because its shift by the row maximum
  cancels. The frames of the two kernel programs are the generated ones; the reference's frame is its run with the
  result dropped; the ideal pass rewrote nothing, so `preserves` is trivial.
-/
import proofs.«412151_j47029891891462_3_alg».proof.Defs
import proofs.«412151_j47029891891462_3_alg».proof.Proof.Gen.Kernel
import proofs.«412151_j47029891891462_3_alg».proof.Proof.Gen.Kernel.Skeleton
import proofs.«412151_j47029891891462_3_alg».proof.Proof.Gen.Kernel.Loops
import proofs.«412151_j47029891891462_3_alg».proof.Proof.Gen.Kernel.Launch
import proofs.«412151_j47029891891462_3_alg».proof.Proof.Gen.Kernel.Points
import proofs.«412151_j47029891891462_3_alg».proof.Proof.Gen.Kernel.Frame
import proofs.«412151_j47029891891462_3_alg».proof.Proof.Gen.KernelIdeal
import proofs.«412151_j47029891891462_3_alg».proof.Proof.Gen.KernelIdeal.Skeleton
import proofs.«412151_j47029891891462_3_alg».proof.Proof.Gen.KernelIdeal.Loops
import proofs.«412151_j47029891891462_3_alg».proof.Proof.Gen.KernelIdeal.Launch
import proofs.«412151_j47029891891462_3_alg».proof.Proof.Gen.KernelIdeal.Points
import proofs.«412151_j47029891891462_3_alg».proof.Proof.Gen.KernelIdeal.Frame
import proofs.«412151_j47029891891462_3_alg».proof.Proof.Gen.ReferenceIdeal
import proofs.«412151_j47029891891462_3_alg».proof.Proof.Gen.Pre_finite_inputs
import proofs.«412151_j47029891891462_3_alg».proof.Proof.PreDecode
import proofs.«412151_j47029891891462_3_alg».proof.Proof.KernelValue
import proofs.«412151_j47029891891462_3_alg».proof.Proof.RefRow
import proofs.«412151_j47029891891462_3_alg».proof.Proof.RefRunStages
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's result is the mean of the per-token losses of ITS argument arrays: its last three operations are
    the sum from zero and the division by 8192 of the per-token products, each of which is the token's loss. -/
theorem ref_mean (x0 : (⟨Cert.ReferenceIdeal.S8x1024x32000, .f32⟩ : BufTy).Contents (Elt Ideal))
    (x1 : (⟨Cert.ReferenceIdeal.S8x1024, .i32⟩ : BufTy).Contents (Elt Ideal))
    (x2 : (⟨Cert.ReferenceIdeal.S8x512, .i32⟩ : BufTy).Contents (Elt Ideal))
    (hfin : ∀ i, ∃ r : ℝ, x0 i = (r : EReal)) (hlab : ∀ i, Cert.TokenLoss.LabelOk (x1 i)) :
    Cert.ReferenceIdeal.ReadP.val_main_v22 (F := Ideal) x0 x1 x2
      = Cert.KernelIdeal.Hand.meanOf (fun i => Cert.TokenLoss.tokenLoss (fun u => x0 (ix3 (i 0) (i 1) u)) (x1 i) (fun s => x2 (ix2 (i 0) s))) := by
  have h20 : Cert.ReferenceIdeal.ReadP.val_main_v20 (F := Ideal) x0 x1 x2
      = fun i => Cert.TokenLoss.tokenLoss (fun u => x0 (ix3 (i 0) (i 1) u)) (x1 i) (fun s => x2 (ix2 (i 0) s)) := by
    funext i
    obtain ⟨b, q, rfl⟩ : ∃ (b : Fin 8) (q : Fin 1024), i = ix2 b q := ⟨i 0, i 1, eq_ix2 i⟩
    exact Cert.ReferenceIdeal.RefRow.ref_row x0 x1 x2 hfin hlab b q
  unfold Cert.ReferenceIdeal.ReadP.val_main_v22 Cert.ReferenceIdeal.ReadP.val_main_v21
  rw [h20]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- Both idealized programs end at the mean of the per-token losses of the (agreeing) argument arrays. -/
theorem algebraic : Cert.algebraic_KernelIdeal_ReferenceIdeal := by
  intro m ρ m' ρ' hpre hagree
  have hdec := fun c : Dev Cert.KernelIdeal.nD => Cert.TokenLoss.pre_decode _ _ _ (hpre c)
  have hfin : ∀ c i, ∃ r : ℝ, Cert.KernelIdeal.Hand.A0 m c i = (r : EReal) := fun c => (hdec c).1
  have hlab : ∀ c i, Cert.TokenLoss.LabelOk (Cert.KernelIdeal.Hand.A1 m c i) := fun c => (hdec c).2
  refine ⟨fun c => Cert.KernelIdeal.Hand.meanOf (Cert.KernelIdeal.Hand.perToken m c), Cert.KernelIdeal.Hand.run m ρ hfin hlab, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  exact ref_mean _ _ _ (hfin c) (hlab c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
